-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S16384x32 : Shape := ⟨2, ![16384, 32]⟩
abbrev S8192x16384 : Shape := ⟨2, ![8192, 16384]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S16384x32 : S_.BroadcastsInDim S16384x32 (![] : Fin 0 → Fin S16384x32.rank)
  reducesTo_S16384x32_S_d0_1 : S16384x32.ReducesTo [0, 1] S_
  bcast_S_S8192x16384 : S_.BroadcastsInDim S8192x16384 (![] : Fin 0 → Fin S8192x16384.rank)
  reducesTo_S8192x16384_S_d0_1 : S8192x16384.ReducesTo [0, 1] S_

variable [Facts]

def fn {F : FTy → Type} [FloatOps F] (main_arg0 : FVec F S8192x32 .f32) (main_arg1 : FVec F S16384x32 .f32) (main_arg2 : FVec F S8192x16384 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S8192x16384 .f32 := Host.absf main_arg2
  let main_cst_2 : FVec F S_ .f32 := constant S_ .f32 0x7F800000#32
  let main_v10 : FVec F S8192x16384 .f32 := broadcastInDim S8192x16384 ![] bcast_S_S8192x16384 main_cst_2
  let main_v11 : IVec S8192x16384 1 := cmpf .olt main_v9 main_v10
  let main_c_3 : IVec S_ 1 := constantI S_ 1 1#1
  let main_v12 : IVec S_ 1 := (fun x v => Host.reduce IntOp.andi x v reducesTo_S8192x16384_S_d0_1 h_S_) main_v11 main_c_3
  let main_v13 : IVec S_ 1 := andi main_v8 main_v12
  main_v13
-- ==== Kernel.lean ====
abbrev S8192x32 : Shape := ⟨2, ![8192, 32]⟩
abbrev S16384x32 : Shape := ⟨2, ![16384, 32]⟩
abbrev S8192x16384 : Shape := ⟨2, ![8192, 16384]⟩
abbrev S1024x2048 : Shape := ⟨2, ![1024, 2048]⟩
abbrev S1024x32 : Shape := ⟨2, ![1024, 32]⟩
abbrev S2048x32 : Shape := ⟨2, ![2048, 32]⟩
abbrev S_ : Shape := ⟨0, ![]⟩

abbrev nBuf : Space → Nat
  | .hbm => 21
  | .vmem => 24
  | .smem => 0
  | _ => 0

abbrev bufTy : (tb : Table) → Fin (tcTables nBuf tb) → BufTy
  | .hbm, ⟨0, _⟩ => ⟨S8192x32, .f32⟩
  | .hbm, ⟨1, _⟩ => ⟨S16384x32, .f32⟩
  | .hbm, ⟨2, _⟩ => ⟨S8192x16384, .f32⟩
  | .hbm, ⟨3, _⟩ => ⟨S8192x32, .f32⟩
  | .hbm, ⟨4, _⟩ => ⟨S16384x32, .f32⟩
  | .hbm, ⟨5, _⟩ => ⟨S8192x32, .f32⟩
  | .hbm, ⟨6, _⟩ => ⟨S16384x32, .f32⟩
  | .hbm, ⟨7, _⟩ => ⟨S8192x32, .f32⟩
  | .hbm, ⟨8, _⟩ => ⟨S16384x32, .f32⟩
  | .hbm, ⟨9, _⟩ => ⟨S8192x32, .f32⟩
  | .hbm, ⟨10, _⟩ => ⟨S16384x32, .f32⟩
  | .hbm, ⟨11, _⟩ => ⟨S8192x32, .f32⟩
  | .hbm, ⟨12, _⟩ => ⟨S16384x32, .f32⟩
  | .hbm, ⟨13, _⟩ => ⟨S8192x32, .f32⟩
  | .hbm, ⟨14, _⟩ => ⟨S16384x32, .f32⟩
  | .hbm, ⟨15, _⟩ => ⟨S_, .f32⟩
  | .hbm, ⟨16, _⟩ => ⟨S8192x32, .f32⟩
  | .hbm, ⟨17, _⟩ => ⟨S8192x32, .f32⟩
  | .hbm, ⟨18, _⟩ => ⟨S_, .f32⟩
  | .hbm, ⟨19, _⟩ => ⟨S16384x32, .f32⟩
  | .hbm, ⟨20, _⟩ => ⟨S16384x32, .f32⟩
  | .local _ .vmem, ⟨0, _⟩ => ⟨S1024x2048, .f32⟩
  | .local _ .vmem, ⟨1, _⟩ => ⟨S1024x2048, .f32⟩
  | .local _ .vmem, ⟨2, _⟩ => ⟨S1024x32, .f32⟩
  | .local _ .vmem, ⟨3, _⟩ => ⟨S1024x32, .f32⟩
  | .local _ .vmem, ⟨4, _⟩ => ⟨S2048x32, .f32⟩
  | .local _ .vmem, ⟨5, _⟩ => ⟨S2048x32, .f32⟩
  | .local _ .vmem, ⟨6, _⟩ => ⟨S8192x32, .f32⟩
  | .local _ .vmem, ⟨7, _⟩ => ⟨S16384x32, .f32⟩
  | .local _ .vmem, ⟨8, _⟩ => ⟨S1024x2048, .f32⟩
  | .local _ .vmem, ⟨9, _⟩ => ⟨S1024x2048, .f32⟩
  | .local _ .vmem, ⟨10, _⟩ => ⟨S1024x32, .f32⟩
  | .local _ .vmem, ⟨11, _⟩ => ⟨S1024x32, .f32⟩
  | .local _ .vmem, ⟨12, _⟩ => ⟨S2048x32, .f32⟩
  | .local _ .vmem, ⟨13, _⟩ => ⟨S2048x32, .f32⟩
  | .local _ .vmem, ⟨14, _⟩ => ⟨S8192x32, .f32⟩
  | .local _ .vmem, ⟨15, _⟩ => ⟨S16384x32, .f32⟩
  | .local _ .vmem, ⟨16, _⟩ => ⟨S1024x2048, .f32⟩
  | .local _ .vmem, ⟨17, _⟩ => ⟨S1024x2048, .f32⟩
  | .local _ .vmem, ⟨18, _⟩ => ⟨S1024x32, .f32⟩
  | .local _ .vmem, ⟨19, _⟩ => ⟨S1024x32, .f32⟩
  | .local _ .vmem, ⟨20, _⟩ => ⟨S2048x32, .f32⟩
  | .local _ .vmem, ⟨21, _⟩ => ⟨S2048x32, .f32⟩
  | .local _ .vmem, ⟨22, _⟩ => ⟨S8192x32, .f32⟩
  | .local _ .vmem, ⟨23, _⟩ => ⟨S16384x32, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c1024_i32 : BitVec 32 := 1024#32
  let v13 : BitVec 32 := Scalar.muli arg0 c1024_i32
  v13
def k0_mult2 (i : grid0.Coords) : BitVec 32 :=
  let arg1 : BitVec 32 := BitVec.ofNat 32 (i 1).val
  let c2048_i32 : BitVec 32 := 2048#32
  let v15 : BitVec 32 := Scalar.muli arg1 c2048_i32
  v15
def k0_off1 (i : grid0.Coords) : Fin 2 → Nat :=
  let arg0 : BitVec 32 := BitVec.ofNat 32 (i 0).val
  let c1024_i32 : BitVec 32 := 1024#32
  let v13 : BitVec 32 := Scalar.muli arg0 c1024_i32
  let v14 : BitVec 32 := v13
  let v17 : Index := Scalar.indexCast v14
  let c0_8 : Index := 0#32
  ![v17.toNat, 0]
def k0_off2 (i : grid0.Coords) : Fin 2 → Nat :=
  let arg1 : BitVec 32 := BitVec.ofNat 32 (i 1).val
  let c2048_i32 : BitVec 32 := 2048#32
  let v15 : BitVec 32 := Scalar.muli arg1 c2048_i32
  let v16 : BitVec 32 := v15
  let v23 : Index := Scalar.indexCast v16
  let c0_10 : Index := 0#32
  ![v23.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8192x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16384x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨2, ![8, 8], ![false, false]⟩

def k1_mult1 (i : grid1.Coords) : BitVec 32 :=
  let arg0 : BitVec 32 := BitVec.ofNat 32 (i 0).val
  let c1024_i32 : BitVec 32 := 1024#32
  let v15 : BitVec 32 := Scalar.muli arg0 c1024_i32
  v15
def k1_mult2 (i : grid1.Coords) : BitVec 32 :=
  let arg1 : BitVec 32 := BitVec.ofNat 32 (i 1).val
  let c2048_i32 : BitVec 32 := 2048#32
  let v17 : BitVec 32 := Scalar.muli arg1 c2048_i32
  v17
def k1_off1 (i : grid1.Coords) : Fin 2 → Nat :=
  let arg0 : BitVec 32 := BitVec.ofNat 32 (i 0).val
  let c1024_i32 : BitVec 32 := 1024#32
  let v15 : BitVec 32 := Scalar.muli arg0 c1024_i32
  let v16 : BitVec 32 := v15
  let v19 : Index := Scalar.indexCast v16
  let c0_8 : Index := 0#32
  ![v19.toNat, 0]
def k1_off2 (i : grid1.Coords) : Fin 2 → Nat :=
  let arg1 : BitVec 32 := BitVec.ofNat 32 (i 1).val
  let c2048_i32 : BitVec 32 := 2048#32
  let v17 : BitVec 32 := Scalar.muli arg1 c2048_i32
  let v18 : BitVec 32 := v17
  let v25 : Index := Scalar.indexCast v18
  let c0_10 : Index := 0#32
  ![v25.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S8192x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S16384x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev grid2 : Pipeline.Grid := ⟨2, ![8, 8], ![false, false]⟩

def k2_mult1 (i : grid2.Coords) : BitVec 32 :=
  let arg0 : BitVec 32 := BitVec.ofNat 32 (i 0).val
  let c1024_i32 : BitVec 32 := 1024#32
  let v15 : BitVec 32 := Scalar.muli arg0 c1024_i32
  v15
def k2_mult2 (i : grid2.Coords) : BitVec 32 :=
  let arg1 : BitVec 32 := BitVec.ofNat 32 (i 1).val
  let c2048_i32 : BitVec 32 := 2048#32
  let v17 : BitVec 32 := Scalar.muli arg1 c2048_i32
  v17
def k2_off1 (i : grid2.Coords) : Fin 2 → Nat :=
  let arg0 : BitVec 32 := BitVec.ofNat 32 (i 0).val
  let c1024_i32 : BitVec 32 := 1024#32
  let v15 : BitVec 32 := Scalar.muli arg0 c1024_i32
  let v16 : BitVec 32 := v15
  let v19 : Index := Scalar.indexCast v16
  let c0_8 : Index := 0#32
  ![v19.toNat, 0]
def k2_off2 (i : grid2.Coords) : Fin 2 → Nat :=
  let arg1 : BitVec 32 := BitVec.ofNat 32 (i 1).val
  let c2048_i32 : BitVec 32 := 2048#32
  let v17 : BitVec 32 := Scalar.muli arg1 c2048_i32
  let v18 : BitVec 32 := v17
  let v25 : Index := Scalar.indexCast v18
  let c0_10 : Index := 0#32
  ![v25.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2048x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S8192x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S16384x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

class Facts₀ : Prop where
  inb_S8192x32_S8192x32_0_0 : ∀ a, (![0, 0] : Fin 2 → Nat) a + S8192x32.size a ≤ S8192x32.size a
  h_S8192x32 : 0 < S8192x32.numel
  inb_S16384x32_S16384x32_0_0 : ∀ a, (![0, 0] : Fin 2 → Nat) a + S16384x32.size a ≤ S16384x32.size a
  h_S16384x32 : 0 < S16384x32.numel
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S1024x32_S1024x32_0_0 : ∀ a, (![0, 0] : Fin 2 → Nat) a + S1024x32.size a ≤ S1024x32.size a
  h_S1024x32 : 0 < S1024x32.numel
  inb_S2048x32_S2048x32_0_0 : ∀ a, (![0, 0] : Fin 2 → Nat) a + S2048x32.size a ≤ S2048x32.size a
  h_S2048x32 : 0 < S2048x32.numel
  shapeCasts_S1024x32_S1024x32 : S1024x32.ShapeCasts S1024x32
  shapeCasts_S2048x32_S2048x32 : S2048x32.ShapeCasts S2048x32
  bcast_S_S8192x32 : S_.BroadcastsInDim S8192x32 (![] : Fin 0 → Fin S8192x32.rank)
  bcast_S_S16384x32 : S_.BroadcastsInDim S16384x32 (![] : Fin 0 → Fin S16384x32.rank)
  dot_S1024x2048_S2048x32_S1024x32_1_0_0_1_n_n_wf : DotDims.WF S1024x2048 S2048x32 S1024x32 [1] [0] [0] [1] [] []
  dot_S1024x2048_S1024x32_S2048x32_0_0_1_1_n_n_wf : DotDims.WF S1024x2048 S1024x32 S2048x32 [0] [0] [1] [1] [] []
  hrank0 : 0 < grid0.rank
  k0_mult1_dvd : ∀ i : grid0.Coords, 1024 ∣ (k0_mult1 i).toNat
  k0_mult2_dvd : ∀ i : grid0.Coords, 2048 ∣ (k0_mult2 i).toNat
  k0_off1_inb : ∀ i : grid0.Coords, ∀ a, (k0_off1 i) a + S1024x32.size a ≤ S8192x32.size a
  k0_off2_inb : ∀ i : grid0.Coords, ∀ a, (k0_off2 i) a + S2048x32.size a ≤ S16384x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x16384.size a
  hwx0_0 : ∀ i : grid0.Coords, EltTy.bits .f32 = 32 ∨ (Rect.block (s := S8192x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S8192x32.size a
  hwx0_1 : ∀ i : grid0.Coords, EltTy.bits .f32 = 32 ∨ (Rect.block (s := S8192x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S16384x32.size a
  hwx0_2 : ∀ i : grid0.Coords, EltTy.bits .f32 = 32 ∨ (Rect.block (s := S16384x32) S2048x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x32.size a ≤ S8192x32.size a
  hwx0_3 : ∀ i : grid0.Coords, EltTy.bits .f32 = 32 ∨ (Rect.block (s := S8192x32) S8192x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16384x32.size a ≤ S16384x32.size a
  hwx0_4 : ∀ i : grid0.Coords, EltTy.bits .f32 = 32 ∨ (Rect.block (s := S16384x32) S16384x32.size (cc0_transform_4 i) (hinb0_4 i)).WholeWords (EltTy.packing .f32)
  hrank1 : 0 < grid1.rank
  k1_mult1_dvd : ∀ i : grid1.Coords, 1024 ∣ (k1_mult1 i).toNat
  k1_mult2_dvd : ∀ i : grid1.Coords, 2048 ∣ (k1_mult2 i).toNat
  k1_off1_inb : ∀ i : grid1.Coords, ∀ a, (k1_off1 i) a + S1024x32.size a ≤ S8192x32.size a
  k1_off2_inb : ∀ i : grid1.Coords, ∀ a, (k1_off2 i) a + S2048x32.size a ≤ S16384x32.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x16384.size a
  hwx1_0 : ∀ i : grid1.Coords, EltTy.bits .f32 = 32 ∨ (Rect.block (s := S8192x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x32.size a ≤ S8192x32.size a
  hwx1_1 : ∀ i : grid1.Coords, EltTy.bits .f32 = 32 ∨ (Rect.block (s := S8192x32) S1024x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x32.size a ≤ S16384x32.size a
  hwx1_2 : ∀ i : grid1.Coords, EltTy.bits .f32 = 32 ∨ (Rect.block (s := S16384x32) S2048x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x32.size a ≤ S8192x32.size a
  hwx1_3 : ∀ i : grid1.Coords, EltTy.bits .f32 = 32 ∨ (Rect.block (s := S8192x32) S8192x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16384x32.size a ≤ S16384x32.size a
  hwx1_4 : ∀ i : grid1.Coords, EltTy.bits .f32 = 32 ∨ (Rect.block (s := S16384x32) S16384x32.size (cc1_transform_4 i) (hinb1_4 i)).WholeWords (EltTy.packing .f32)
  hrank2 : 0 < grid2.rank
  k2_mult1_dvd : ∀ i : grid2.Coords, 1024 ∣ (k2_mult1 i).toNat
  k2_mult2_dvd : ∀ i : grid2.Coords, 2048 ∣ (k2_mult2 i).toNat
  k2_off1_inb : ∀ i : grid2.Coords, ∀ a, (k2_off1 i) a + S1024x32.size a ≤ S8192x32.size a
  k2_off2_inb : ∀ i : grid2.Coords, ∀ a, (k2_off2 i) a + S2048x32.size a ≤ S16384x32.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x16384.size a
  hwx2_0 : ∀ i : grid2.Coords, EltTy.bits .f32 = 32 ∨ (Rect.block (s := S8192x16384) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x32.size a ≤ S8192x32.size a
  hwx2_1 : ∀ i : grid2.Coords, EltTy.bits .f32 = 32 ∨ (Rect.block (s := S8192x32) S1024x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x32.size a ≤ S16384x32.size a
  hwx2_2 : ∀ i : grid2.Coords, EltTy.bits .f32 = 32 ∨ (Rect.block (s := S16384x32) S2048x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8192x32.size a ≤ S8192x32.size a
  hwx2_3 : ∀ i : grid2.Coords, EltTy.bits .f32 = 32 ∨ (Rect.block (s := S8192x32) S8192x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16384x32.size a ≤ S16384x32.size a
  hwx2_4 : ∀ i : grid2.Coords, EltTy.bits .f32 = 32 ∨ (Rect.block (s := S16384x32) S16384x32.size (cc2_transform_4 i) (hinb2_4 i)).WholeWords (EltTy.packing .f32)

variable [Facts₀]

def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf
def dot_S1024x2048_S1024x32_S2048x32_0_0_1_1_n_n : DotDims S1024x2048 S1024x32 S2048x32 where
  lhsContracting := [0]
  rhsContracting := [0]
  lhsNonContracting := [1]
  rhsNonContracting := [1]
  lhsBatch := []
  rhsBatch := []
  wf := dot_S1024x2048_S1024x32_S2048x32_0_0_1_1_n_n_wf

abbrev win0_0 : Pipeline.Window sig grid0 :=
  Pipeline.Window.ofSpec (Memref.whole main_arg2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8192x32.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S16384x32.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1024x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S2048x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S8192x32.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S16384x32.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg2) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_0) S1024x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3_1) S2048x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6_0) S8192x32.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6_1) S16384x32.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x32 : Shape := ⟨2, ![8192, 32]⟩
abbrev S16384x32 : Shape := ⟨2, ![16384, 32]⟩
abbrev S8192x16384 : Shape := ⟨2, ![8192, 16384]⟩
abbrev S16384x8192 : Shape := ⟨2, ![16384, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S16384x32, .f32⟩
  | .hbm, ⟨2, _⟩ => ⟨S8192x16384, .f32⟩
  | .hbm, ⟨3, _⟩ => ⟨S8192x32, .f32⟩
  | .hbm, ⟨4, _⟩ => ⟨S16384x8192, .f32⟩
  | .hbm, ⟨5, _⟩ => ⟨S16384x32, .f32⟩
  | .hbm, ⟨6, _⟩ => ⟨S8192x32, .f32⟩
  | .hbm, ⟨7, _⟩ => ⟨S16384x32, .f32⟩
  | .hbm, ⟨8, _⟩ => ⟨S8192x32, .f32⟩
  | .hbm, ⟨9, _⟩ => ⟨S16384x8192, .f32⟩
  | .hbm, ⟨10, _⟩ => ⟨S16384x32, .f32⟩
  | .hbm, ⟨11, _⟩ => ⟨S8192x32, .f32⟩
  | .hbm, ⟨12, _⟩ => ⟨S16384x32, .f32⟩
  | .hbm, ⟨13, _⟩ => ⟨S8192x32, .f32⟩
  | .hbm, ⟨14, _⟩ => ⟨S16384x8192, .f32⟩
  | .hbm, ⟨15, _⟩ => ⟨S16384x32, .f32⟩
  | .hbm, ⟨16, _⟩ => ⟨S8192x32, .f32⟩
  | .hbm, ⟨17, _⟩ => ⟨S16384x32, .f32⟩
  | .hbm, ⟨18, _⟩ => ⟨S_, .f32⟩
  | .hbm, ⟨19, _⟩ => ⟨S8192x32, .f32⟩
  | .hbm, ⟨20, _⟩ => ⟨S8192x32, .f32⟩
  | .hbm, ⟨21, _⟩ => ⟨S_, .f32⟩
  | .hbm, ⟨22, _⟩ => ⟨S16384x32, .f32⟩
  | .hbm, ⟨23, _⟩ => ⟨S16384x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  transposes_S8192x16384_S16384x8192_1_0 : S8192x16384.Transposes [1, 0] S16384x8192
  bcast_S_S8192x32 : S_.BroadcastsInDim S8192x32 (![] : Fin 0 → Fin S8192x32.rank)
  bcast_S_S16384x32 : S_.BroadcastsInDim S16384x32 (![] : Fin 0 → Fin S16384x32.rank)
  dot_S8192x16384_S16384x32_S8192x32_1_0_0_1_n_n_wf : DotDims.WF S8192x16384 S16384x32 S8192x32 [1] [0] [0] [1] [] []
  dot_S16384x8192_S8192x32_S16384x32_1_0_0_1_n_n_wf : DotDims.WF S16384x8192 S8192x32 S16384x32 [1] [0] [0] [1] [] []

variable [Facts₀]

def dot_S8192x16384_S16384x32_S8192x32_1_0_0_1_n_n : DotDims S8192x16384 S16384x32 S8192x32 where
  lhsContracting := [1]
  rhsContracting := [0]
  lhsNonContracting := [0]
  rhsNonContracting := [1]
  lhsBatch := []
  rhsBatch := []
  wf := dot_S8192x16384_S16384x32_S8192x32_1_0_0_1_n_n_wf
def dot_S16384x8192_S8192x32_S16384x32_1_0_0_1_n_n : DotDims S16384x8192 S8192x32 S16384x32 where
  lhsContracting := [1]
  rhsContracting := [0]
  lhsNonContracting := [0]
  rhsNonContracting := [1]
  lhsBatch := []
  rhsBatch := []
  wf := dot_S16384x8192_S8192x32_S16384x32_1_0_0_1_n_n_wf

class Facts : Prop extends Facts₀ where

variable [Facts]
-- ==== Proof.LibOverlay.lean ====
/-
  Reading a buffer back after a list of stores, newest first: the newest store's payload on its rectangle and,
  off it, what the earlier stores left (`Rect.overlay`); and the special case of a store through the whole
  shape at zero offsets, which leaves its payload whatever came before.
-/
import Idealize.ShloMosaic.Lib.Writes
import Idealize.ShloMosaic.Lib.Memref
import Idealize.ShloMosaic.Lib.Pipeline.Value

namespace Idealize.ShloMosaic.View

variable {sig : RefSig} {κ : Kind} {sp : Space} {s : Shape} {e : EltTy} {Val : EltTy → Type}

/-- After the stores `⟨r, w⟩ :: L` the view reads `w` on `r` and, elsewhere, what `L` left. -/
theorem read_writes_cons_overlay (v : View sig κ sp s e) (f : v.ty.Contents Val) (r : Rect s) (w : r.shape.Idx → Val e)
    (L : List (Piece Val s e)) :
    v.read Val (v.writes Val f ((⟨r, w⟩ : Piece Val s e) :: L)) = r.overlay (v.read Val (v.writes Val f L)) w := by
  funext y
  by_cases hy : y ∈ r.set
  · obtain ⟨x, rfl⟩ := r.exists_idx_of_mem hy
    rw [show r.idx x = r.emb x from rfl, read_writes_cons_emb, Rect.overlay_emb]
  · rw [Rect.overlay_of_not_mem _ _ _ hy, writes_cons]
    exact read_slice_write_of_not_mem r _ _ _ (by rw [Rect.map_emb_univ]; exact hy)

/-- A store through the whole shape at zero offsets, newest, reads back as its payload. -/
theorem read_writes_cons_unit_zero (v : View sig κ sp s e) (f : v.ty.Contents Val) {off : Fin s.rank → Nat}
    (h : off = fun _ => 0) (inb : ∀ a, off a + s.size a ≤ s.size a) (w : s.Idx → Val e) (L : List (Piece Val s e)) :
    v.read Val (v.writes Val f ((⟨Rect.unit off s.size inb, w⟩ : Piece Val s e) :: L)) = w := by
  subst h; funext y
  have e := read_writes_cons_emb v f (Rect.whole s) w L y
  rwa [Rect.emb_whole_apply] at e

end Idealize.ShloMosaic.View
-- ==== Proof.KI.Step0.lean ====
/-
  One grid point of propagation round 0 (rounds are numbered 0, 1, 2), as a function of what the point reads.
  The round's two results are resident for the whole grid: at point (bi, bj) the body adds the tile product
  A[bi, bj] · I[bj] to rows [1024·bi, 1024·bi + 1024) of the user-side accumulator and A[bi, bj]ᵀ · U[bi] to rows
  [2048·bj, 2048·bj + 2048) of the item-side accumulator, after clearing both accumulators at the first point.
  `stepU0` / `stepI0` say what an accumulator holds after the point from what it held before: the old contents
  with that band of rows replaced by (old band + tile product). The two theorems run the body on any staging
  buffers: away from the first point over the accumulators' previous contents, at the first point over zeros
  whatever the buffers held.
-/
import proofs.«178445_j35003983462547_1_alg».proof.Proof.Gen.KernelIdeal.Launch
import proofs.«178445_j35003983462547_1_alg».proof.Proof.Gen.KernelIdeal.Skeleton
import proofs.«178445_j35003983462547_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«178445_j35003983462547_1_alg».proof.Proof.LibOverlay

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's branch condition from the grid coordinates: both coordinates are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point of the grid only. -/
theorem hcond0 : ∀ t : Fin cfg0.N, cond0 (grid0.coords t) ↔ t.val = 0 :=
  (by decide +kernel : ∀ t : Fin grid0.N, cond0 (grid0.coords t) ↔ t.val = 0)

/-- The rectangles the body reads and writes through: each input block whole, and the band of rows of each accumulator. -/
abbrev rA0 : Rect S1024x2048 := Rect.unit (s := S1024x2048) ![0, 0] S1024x2048.size inb_S1024x2048_S1024x2048_0_0
abbrev rK0 : Rect S1024x32 := Rect.unit (s := S1024x32) ![0, 0] S1024x32.size inb_S1024x32_S1024x32_0_0
abbrev rJ0 : Rect S2048x32 := Rect.unit (s := S2048x32) ![0, 0] S2048x32.size inb_S2048x32_S2048x32_0_0
abbrev rU0 (i : grid0.Coords) : Rect S8192x32 := Rect.unit (s := S8192x32) (k0_off1 i) S1024x32.size (k0_off1_inb i)
abbrev rI0 (i : grid0.Coords) : Rect S16384x32 := Rect.unit (s := S16384x32) (k0_off2 i) S2048x32.size (k0_off2_inb i)

/-- The user-side accumulator after the point: the band of rows the point owns replaced by band + A-tile · item block. -/
def stepU0 (i : grid0.Coords) (a : Vec F S1024x2048 .f32) (it : Vec F S2048x32 .f32) (p : Vec F S8192x32 .f32) : Vec F S8192x32 .f32 :=
  (rU0 i).overlay p (k0_pay4 (View.ld a rA0) (View.ld it rJ0) (View.ld p (rU0 i)))

/-- The item-side accumulator after the point: its band replaced by band + A-tileᵀ · user block. -/
def stepI0 (i : grid0.Coords) (a : Vec F S1024x2048 .f32) (u : Vec F S1024x32 .f32) (p : Vec F S16384x32 .f32) : Vec F S16384x32 .f32 :=
  (rI0 i).overlay p (k0_pay5 (View.ld a rA0) (View.ld u rK0) (View.ld p (rI0 i)))

/-- The cleared accumulators. -/
abbrev zeroU0 : Vec F S8192x32 .f32 := k0_pay1 (F := F)
abbrev zeroI0 : Vec F S16384x32 .f32 := k0_pay2 (F := F)

theorem hzr0 : (![0, 0] : Fin 2 → ℕ) = fun _ => 0 := by funext a; fin_cases a <;> rfl

set_option maxHeartbeats 1000000 in
/-- Away from the first point the body leaves the inputs as they were and each accumulator stepped from its previous contents. -/
theorem sound_kernel0_B (c : Dev nD) (E : Set ℕ) (i : grid0.Coords)
    (arg2 : Memref sig .tc .vmem S1024x2048 .f32) (harg2 : arg2.IsWhole) (arg3 : Memref sig .tc .vmem S1024x32 .f32) (harg3 : arg3.IsWhole)
    (arg4 : Memref sig .tc .vmem S2048x32 .f32) (harg4 : arg4.IsWhole) (arg5 : Memref sig .tc .vmem S8192x32 .f32) (harg5 : arg5.IsWhole)
    (arg6 : Memref sig .tc .vmem S16384x32 .f32) (harg6 : arg6.IsWhole) (hc : ¬ cond0 i)
    (a : Vec F S1024x2048 .f32) (u : Vec F S1024x32 .f32) (it : Vec F S2048x32 .f32) (p3 : Vec F S8192x32 .f32) (p4 : Vec F S16384x32 .f32)
    (K : PUnit → sProp 𝕄) :
    iprop(owns (c : Thread nD τ) arg2 fullShare a ∗ owns (c : Thread nD τ) arg3 fullShare u ∗ owns (c : Thread nD τ) arg4 fullShare it
        ∗ owns (c : Thread nD τ) arg5 fullShare p3 ∗ owns (c : Thread nD τ) arg6 fullShare p4
        ∗ (iprop(owns (c : Thread nD τ) arg2 fullShare a ∗ owns (c : Thread nD τ) arg3 fullShare u ∗ owns (c : Thread nD τ) arg4 fullShare it
            ∗ owns (c : Thread nD τ) arg5 fullShare (stepU0 i a it p3) ∗ owns (c : Thread nD τ) arg6 fullShare (stepI0 i a u p4)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    swap; · iexact H5
    ipureintro
    rw [View.read_writes_cons_overlay, View.writes_nil]
    simp only [View.readAt_eq_ld, hf2, hf4, hf5]
    rfl
  · iexists _; isplitr
    swap; · iexact H6
    ipureintro
    rw [View.read_writes_cons_overlay, View.writes_nil]
    simp only [View.readAt_eq_ld, hf2, hf3, hf6]
    rfl

set_option maxHeartbeats 1000000 in
/-- At the first point the body clears both accumulators, whatever they held, and steps them from zero. -/
theorem sound_kernel0_A (c : Dev nD) (E : Set ℕ) (i : grid0.Coords)
    (arg2 : Memref sig .tc .vmem S1024x2048 .f32) (harg2 : arg2.IsWhole) (arg3 : Memref sig .tc .vmem S1024x32 .f32) (harg3 : arg3.IsWhole)
    (arg4 : Memref sig .tc .vmem S2048x32 .f32) (harg4 : arg4.IsWhole) (arg5 : Memref sig .tc .vmem S8192x32 .f32) (harg5 : arg5.IsWhole)
    (arg6 : Memref sig .tc .vmem S16384x32 .f32) (harg6 : arg6.IsWhole) (hc : cond0 i)
    (a : Vec F S1024x2048 .f32) (u : Vec F S1024x32 .f32) (it : Vec F S2048x32 .f32)
    (K : PUnit → sProp 𝕄) :
    iprop(owns (c : Thread nD τ) arg2 fullShare a ∗ owns (c : Thread nD τ) arg3 fullShare u ∗ owns (c : Thread nD τ) arg4 fullShare it
        ∗ (∃ d, owns (c : Thread nD τ) arg5 fullShare d) ∗ (∃ d, owns (c : Thread nD τ) arg6 fullShare d)
        ∗ (iprop(owns (c : Thread nD τ) arg2 fullShare a ∗ owns (c : Thread nD τ) arg3 fullShare u ∗ owns (c : Thread nD τ) arg4 fullShare it
            ∗ owns (c : Thread nD τ) arg5 fullShare (stepU0 i a it zeroU0) ∗ owns (c : Thread nD τ) arg6 fullShare (stepI0 i a u zeroI0)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f2, %hf2, H2⟩, ⟨%f3, %hf3, H3⟩, ⟨%f4, %hf4, H4⟩, ⟨%d5, %f5, -, H5⟩, ⟨%d6, %f6, -, H6⟩, Hk⟩
  obtain rfl := harg2.eq_unread hf2
  obtain rfl := harg3.eq_unread hf3
  obtain rfl := harg4.eq_unread hf4
  sl_exec (disch := first | exact hc)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    swap; · iexact H5
    ipureintro
    sl_unfold_words
    rw [View.read_writes_cons_overlay]
    simp only [View.readAt_eq_ld, View.read_writes_cons_unit_zero (s := S8192x32) _ _ hzr0, hf2, hf4]
    rfl
  · iexists _; isplitr
    swap; · iexact H6
    ipureintro
    sl_unfold_words
    rw [View.read_writes_cons_overlay]
    simp only [View.readAt_eq_ld, View.read_writes_cons_unit_zero (s := S16384x32) _ _ hzr0, hf2, hf3]
    rfl

end Cert.KernelIdeal.Hand

end
-- ==== Proof.KI.Dat0.lean ====
/-
  Propagation round 0 (rounds are numbered 0, 1, 2) as a pipelined region: what every staging buffer holds point by point.
  An input window's buffer holds its array's block at the point, fetched there or not. The two accumulators are
  resident (one block, written back once, after the last point): after point n each holds the step function folded
  over the points 0 … n, started from zero at the first. From these the body obligation of the region follows at
  every point: the first point by the clearing run, every later one by the run over what the point before left.
-/
import proofs.«178445_j35003983462547_1_alg».proof.Proof.KI.Step0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The user-side accumulator after point `n`: the step at `n` over what the point before left, over zero at the first. -/
def accU0 (c : Dev nD) : (n : ℕ) → n < cfg0.N → Vec F S8192x32 .f32
  | 0, hn => stepU0 (grid0.coords ⟨0, hn⟩) (iblk0 V c 0 ⟨0, hn⟩) (iblk0 V c 2 ⟨0, hn⟩) zeroU0
  | n + 1, hn => stepU0 (grid0.coords ⟨n + 1, hn⟩) (iblk0 V c 0 ⟨n + 1, hn⟩) (iblk0 V c 2 ⟨n + 1, hn⟩) (accU0 c n (Nat.lt_of_succ_lt hn))

/-- The item-side accumulator after point `n`. -/
def accI0 (c : Dev nD) : (n : ℕ) → n < cfg0.N → Vec F S16384x32 .f32
  | 0, hn => stepI0 (grid0.coords ⟨0, hn⟩) (iblk0 V c 0 ⟨0, hn⟩) (iblk0 V c 1 ⟨0, hn⟩) zeroI0
  | n + 1, hn => stepI0 (grid0.coords ⟨n + 1, hn⟩) (iblk0 V c 0 ⟨n + 1, hn⟩) (iblk0 V c 1 ⟨n + 1, hn⟩) (accI0 c n (Nat.lt_of_succ_lt hn))

theorem accU0_zero (c : Dev nD) (t : Fin cfg0.N) (h0 : t.val = 0) :
    accU0 V c t.val t.isLt = stepU0 (grid0.coords t) (iblk0 V c 0 t) (iblk0 V c 2 t) zeroU0 := by
  obtain ⟨n, hn⟩ := t
  cases n with
  | zero => rfl
  | succ n => exact absurd h0 (Nat.succ_ne_zero n)
theorem accU0_succ (c : Dev nD) (t : Fin cfg0.N) (h0 : t.val ≠ 0) :
    accU0 V c t.val t.isLt = stepU0 (grid0.coords t) (iblk0 V c 0 t) (iblk0 V c 2 t) (accU0 V c (t.val - 1) (Nat.lt_of_le_of_lt (Nat.sub_le _ _) t.isLt)) := by
  obtain ⟨n, hn⟩ := t
  cases n with
  | zero => exact absurd rfl h0
  | succ n => rfl
theorem accI0_zero (c : Dev nD) (t : Fin cfg0.N) (h0 : t.val = 0) :
    accI0 V c t.val t.isLt = stepI0 (grid0.coords t) (iblk0 V c 0 t) (iblk0 V c 1 t) zeroI0 := by
  obtain ⟨n, hn⟩ := t
  cases n with
  | zero => rfl
  | succ n => exact absurd h0 (Nat.succ_ne_zero n)
theorem accI0_succ (c : Dev nD) (t : Fin cfg0.N) (h0 : t.val ≠ 0) :
    accI0 V c t.val t.isLt = stepI0 (grid0.coords t) (iblk0 V c 0 t) (iblk0 V c 1 t) (accI0 V c (t.val - 1) (Nat.lt_of_le_of_lt (Nat.sub_le _ _) t.isLt)) := by
  obtain ⟨n, hn⟩ := t
  cases n with
  | zero => exact absurd rfl h0
  | succ n => rfl

/-- The proof data of the region on core `c`: the arrays as the region finds them; after the body at point `t` each
    input's buffer at its block and each accumulator at its fold; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => accU0 V c t.val t.isLt
    | ⟨4, _⟩ => accI0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = accU0 V c t.val t.isLt := by dsimp only [dat0]
theorem after0_4 (c : Dev nD) (t : Fin cfg0.N) : (dat0 V c).after 4 t = accI0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- After the first point an accumulator's buffer holds what the point before left: it is written back only after the
    last point, and the window is live and uncut. -/
theorem before0_3 (c : Dev nD) (t : Fin cfg0.N) (h0 : t.val ≠ 0) (d) :
    (dat0 V c).before 3 t d = accU0 V c (t.val - 1) (Nat.lt_of_le_of_lt (Nat.sub_le _ _) t.isLt) := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    (fun _ => rfl) (fun _ _ => rfl)]
  dsimp only [dat0]
theorem before0_4 (c : Dev nD) (t : Fin cfg0.N) (h0 : t.val ≠ 0) (d) :
    (dat0 V c).before 4 t d = accI0 V c (t.val - 1) (Nat.lt_of_le_of_lt (Nat.sub_le _ _) t.isLt) := by
  have hN : t.val < 64 := lt_of_lt_of_eq t.isLt (show cfg0.N = 64 from N_0)
  rw [Dat.before_out_kept _ 4 rfl t h0 (Bool.eq_false_iff.mpr fun h => by have := (flush0_4 _).mp h; dsimp only at this; omega)
    (fun _ => rfl) (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 800000 in
/-- The body at any point: the inputs' buffers hold their blocks; at the first point the clearing run applies whatever
    the accumulators' buffers hold, at a later one the run over what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [accU0_zero V c t h0, accI0_zero V c t h0]
    iintro ⟨HΦ, Ho, ⟨%d0, H0⟩, ⟨%d1, H1⟩, ⟨%d2, H2⟩, ⟨%d3, H3⟩, ⟨%d4, H4⟩⟩
    iapply (sound_kernel0_A c Set.univ (grid0.coords t) _ _ _ _ _ _ _ _ _ _ ((hcond0 t).mpr h0) (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accU0_succ V c t h0, accI0_succ V c t h0]
    simp only [before0_3 V c t h0, before0_4 V c t h0]
    iintro ⟨HΦ, Ho, ⟨%d0, H0⟩, ⟨%d1, H1⟩, ⟨%d2, H2⟩, ⟨%d3, H3⟩, ⟨%d4, H4⟩⟩
    iapply (sound_kernel0_B c Set.univ (grid0.coords t) _ _ _ _ _ _ _ _ _ _ (fun h => h0 ((hcond0 t).mp h)) (iblk0 V c 0 t) (iblk0 V c 1 t) (iblk0 V c 2 t) _ _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Run.lean ====
/-
  The run of the whole program over its three propagation rounds. Between two items of the program the core's
  unscoped buffers hold known contents: the launch memory, then alternately what a round's write-backs leave (the
  round's five arrays at the contents its pipeline ends with, every other buffer untouched) and what the host
  operations after that round compute from them. No host operation and no round writes one of the three arguments
  (a round only reads an argument, through an input window), so the contents at the end agree with the launch memory
  there. Every round is entered from the contents the item before it left, runs its grid by the round's body
  obligation, and leaves the contents named here; chained from the launch to the return this gives: every weakly fair
  execution terminates and ends with every unscoped buffer at the last contents of the fold.
-/
import proofs.«178445_j35003983462547_1_alg».proof.Proof.KI.Dat0
import proofs.«178445_j35003983462547_1_alg».proof.Proof.KI.Dat1
import proofs.«178445_j35003983462547_1_alg».proof.Proof.KI.Dat2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the host operations write -/

/-- The buffers the host operations after round 0, after round 1 and after round 2 write. -/
abbrev written1 : List (Ref sig .tc) := [main_v1, main_v2]
abbrev written2 : List (Ref sig .tc) := [main_v4, main_v5]
abbrev written3 : List (Ref sig .tc) := [main_v7, main_v8, main_cst, main_v9, main_v10, main_cst_0, main_v11, main_v12]

theorem hostOps1_writes : (hostOps1 : List (HloOp τ sig (Elt F))).Forall fun op => op.writes ⊆ (written1.map (Proc.devRef (τ := τ) .tc)).toFinset := by
  simp only [List.Forall, StableHlo.binary_writes, Finset.singleton_subset_iff, List.mem_toFinset]
  refine ⟨?_, ?_⟩ <;> exact List.mem_map_of_mem (by decide)
theorem hostOps2_writes : (hostOps2 : List (HloOp τ sig (Elt F))).Forall fun op => op.writes ⊆ (written2.map (Proc.devRef (τ := τ) .tc)).toFinset := by
  simp only [List.Forall, StableHlo.binary_writes, Finset.singleton_subset_iff, List.mem_toFinset]
  refine ⟨?_, ?_⟩ <;> exact List.mem_map_of_mem (by decide)
theorem hostOps3_writes : (hostOps3 : List (HloOp τ sig (Elt F))).Forall fun op => op.writes ⊆ (written3.map (Proc.devRef (τ := τ) .tc)).toFinset := by
  simp only [List.Forall, StableHlo.nullary_writes, StableHlo.unary_writes, StableHlo.binary_writes, Finset.singleton_subset_iff, List.mem_toFinset]
  refine ⟨?_, ?_, ?_, ?_, ?_, ?_, ?_, ?_⟩ <;> exact List.mem_map_of_mem (by decide)

/-- None of them allocates a buffer. -/
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

variable (m : (ℓ : Loc nD τ sig) → Buf (Elt F) ℓ) (ρ : Dev nD → PrngReg)

/-! ## The buffer contents between the items of the program -/

/-- Core `c`'s buffers at launch: what round 0 is entered from. -/
abbrev W0 : Dev nD → Valuation τ sig (Elt F) := fun c b => (s₀ m ρ).mem ((c : Dev nD), b)
/-- The same read at the core's references (what round 0's proof data take). -/
abbrev V0 : (c : Dev nD) → (b : Ref sig .tc) → Buf (Elt F) ((c : Thread nD τ).loc b) := fun c b => W0 m ρ c b
/-- After round 0: its five arrays at what the pipeline leaves (an input as entered, an accumulator at its
    write-back), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations that follow round 0: what round 1 is entered from. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After round 1. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host operations that follow round 1: what round 2 is entered from. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After round 2. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the last host operations: the contents at the return. -/
abbrev W6 : Dev nD → Valuation τ sig (Elt F) := fun c => StableHlo.after hostOps3 (W5 m ρ c)

/-! ## The arguments end as launched

No host operation writes an argument; round 0 reads the three of them through its input windows, and rounds 1 and 2
read the first (the matrix) through theirs and do not touch the other two. So the fold at an argument walks back to
the launch memory. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps3 _ hostOps3_writes (by decide)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 1).trans (((dat0 (V0 m ρ) c).arrAt_in 1 rfl _).trans (A_eq0 (V0 m ρ) c 1))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub hostOps3 _ hostOps3_writes (by decide)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 2).trans (((dat0 (V0 m ρ) c).arrAt_in 2 rfl _).trans (A_eq0 (V0 m ρ) c 2))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_writes_sub hostOps3 _ hostOps3_writes (by decide)
    _ = W4 m ρ c (Proc.devRef .tc main_arg2) := (W5_arr m ρ c 0).trans (((dat2 (V4 m ρ) c).arrAt_in 0 rfl _).trans (A_eq2 (V4 m ρ) c 0))
    _ = W3 m ρ c (Proc.devRef .tc main_arg2) := StableHlo.after_of_writes_sub hostOps2 _ hostOps2_writes (by decide)
    _ = W2 m ρ c (Proc.devRef .tc main_arg2) := (W3_arr m ρ c 0).trans (((dat1 (V2 m ρ) c).arrAt_in 0 rfl _).trans (A_eq1 (V2 m ρ) c 0))
    _ = W1 m ρ c (Proc.devRef .tc main_arg2) := StableHlo.after_of_writes_sub hostOps1 _ hostOps1_writes (by decide)
    _ = W0 m ρ c (Proc.devRef .tc main_arg2) := (W1_arr m ρ c 0).trans (((dat0 (V0 m ρ) c).arrAt_in 0 rfl _).trans (A_eq0 (V0 m ρ) c 0))
    _ = m ((c : Thread nD τ).loc main_arg2) := rfl

/-! ## The proof data of the three rounds and the state that rides along -/

/-- No round has a prefetched table. -/
abbrev adm : (p : Fin 3) → (pcfgs (F := F) p).Adm := fun p => (cfgs p).toPCfg_adm
/-- Every round's proof data, each at the contents its round is entered from. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
/-- No core owes another anything. -/
abbrev L : GSem nD τ sig → Finset Unit := fun _ => ∅
abbrev lv : GSem nD τ sig → Unit → ℕ := fun _ _ => 0
/-- Beside the buffers every item carries the core's generator register at some state and its dues, which are none. -/
abbrev R (c : Dev nD) : sProp 𝕄 := iprop((∃ r, prngReg c r) ∗ ∃ W, owes (c : Thread nD τ) (0 : CellTallies nD τ sig Unit) W)
/-- A line of host operations run from the contents `W`: it ends at the contents the operations compute from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among the buffers every item holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the return, without the dues: every unscoped buffer at the last contents, the generator register at some state. -/
abbrev Tₙ (c : Dev nD) : sProp 𝕄 := iprop(StableHlo.held (c : Thread nD τ) (Pipeline.ucRefs τ sig) (W6 m ρ c) ∗ ∃ r, prngReg c r)

/-! ## The rounds as items of the run

Each round takes its five arrays out of the unscoped buffers at the contents it is entered from, lends the generator
register to the pipeline's invariant and takes it back, owes nothing, has no semaphore of its own, and puts the arrays
back at what its write-backs leave. -/

set_option backward.isDefEq.respectTransparency.types false in
/-- Round 0: entered from the launch contents, left at the contents after round 0. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Round 1: entered from what the host operations after round 0 leave, left at the contents after round 1. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Round 2: entered from what the host operations after round 1 leave, left at the contents after round 2. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its six items, and the launch -/

/-- The items in order: a round, then the host operations that follow it, three times. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]
/-- The program is the run of these items. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state has every unscoped buffer of every core at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame: every weakly fair execution terminates and ends with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

end Cert.KernelIdeal.Hand

end
-- ==== Proof.Spec.lean ====
/-
  The mathematics of one propagation round, over the extended reals. With A the 8192 × 16384 link matrix, a round
  sends an item-side table I (16384 × 32) to the user-side table A · I, and a user-side table U (8192 × 32) to the
  item-side table Aᵀ · U:
      (A · I)(r, e) = ∑ k < 16384, A(r, k) · I(k, e)          (Aᵀ · U)(s, e) = ∑ k < 8192, A(k, s) · U(k, e).
  Both programs compute exactly these two functions three times over and then the same sums and the same scaling,
  so they agree once each round's results are known to be these.
-/
import Idealize.ShloMosaic.Lib.ValueIdx
import Idealize.ShloMosaic.PureOps.Ideal.Laws

noncomputable section

namespace Cert.Spec

open Idealize.ShloMosaic Idealize.ShloMosaic.ValueIdx

/-- The user-side result of a round: A · I. -/
def propU (A : FVec Ideal ⟨2, ![8192, 16384]⟩ .f32) (I : FVec Ideal ⟨2, ![16384, 32]⟩ .f32) : FVec Ideal ⟨2, ![8192, 32]⟩ .f32 :=
  fun y => ∑ k : Fin 16384, A (ix2 (y 0) k) * I (ix2 k (y 1))

/-- The item-side result of a round: Aᵀ · U. -/
def propI (A : FVec Ideal ⟨2, ![8192, 16384]⟩ .f32) (U : FVec Ideal ⟨2, ![8192, 32]⟩ .f32) : FVec Ideal ⟨2, ![16384, 32]⟩ .f32 :=
  fun y => ∑ k : Fin 8192, A (ix2 k (y 0)) * U (ix2 k (y 1))

theorem propU_apply (A : FVec Ideal ⟨2, ![8192, 16384]⟩ .f32) (I : FVec Ideal ⟨2, ![16384, 32]⟩ .f32) (r : Fin 8192) (e : Fin 32) :
    propU A I (ix2 r e) = ∑ k : Fin 16384, A (ix2 r k) * I (ix2 k e) := rfl

theorem propI_apply (A : FVec Ideal ⟨2, ![8192, 16384]⟩ .f32) (U : FVec Ideal ⟨2, ![8192, 32]⟩ .f32) (s : Fin 16384) (e : Fin 32) :
    propI A U (ix2 s e) = ∑ k : Fin 8192, A (ix2 k s) * U (ix2 k e) := rfl

end Cert.Spec

end
-- ==== Proof.KI.ValueU0.lean ====
/-
  The value of propagation round 0's user-side result (rounds are numbered 0, 1, 2) over the extended reals: once the
  region is done, the array behind the user-side accumulator holds A · I, where A is the 8192 × 16384 link matrix and
  I the 16384 × 32 item table the region finds in its first and third windows.

  The grid's 64 points are t = 8·bi + bj. Point t adds, to the rows [1024·bi, 1024·bi + 1024) of the accumulator, the
  product of the A tile at block (bi, bj) with the item block bj, that is, for each such row r and each column e,
      ∑ k < 2048, A(r, 2048·bj + k) · I(2048·bj + k, e),
  and leaves every other row as it was; the first point starts from zero. So after point n the element (r, e) holds
      ∑ k < 2048 · J, A(r, k) · I(k, e),
  where J counts the column blocks already added to r's row band: 8 for a band before the point's, bj + 1 for the
  point's own, 0 for a later one. After the last point J = 8 for every band and the sum runs over all 16384 columns:
  this is (A · I)(r, e). The accumulator is written back once, after the last point, and its one block is the whole
  array, so the array ends holding exactly that.
-/
import proofs.«178445_j35003983462547_1_alg».proof.Proof.KI.Dat0
import proofs.«178445_j35003983462547_1_alg».proof.Proof.Spec
import Idealize.ShloMosaic.Lib.ValueIdx
import Idealize.ShloMosaic.PureOps.Ideal.Laws
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

namespace ValueU0

/-! ## The tile product at an element -/

/-- The dimension numbers of the tile product: contract axis 1 of the left factor with axis 0 of the right. -/
abbrev D := dot_S1024x2048_S2048x32_S1024x32_1_0_0_1_n_n

/-- The left factor is read at the result's row … -/
theorem dot_lhs_row (i : S1024x32.Idx) (q : D.contr.Idx) : (D.lhsIdx i q 0).val = (i 0).val := by
  unfold DotDims.lhsIdx
  rw [dif_neg (show ¬(0 : Fin S1024x2048.rank) ∈ D.lhsBatch from List.not_mem_nil),
    dif_pos (show (0 : Fin S1024x2048.rank) ∈ D.lhsNonContracting from List.mem_singleton.mpr rfl)]
  rfl

/-- … and at the contracted coordinate; -/
theorem dot_lhs_contr (i : S1024x32.Idx) (q : D.contr.Idx) : (D.lhsIdx i q 1).val = (q ⟨0, Nat.one_pos⟩).val :=
  D.lhsIdx_val_of_single rfl i q

/-- the right factor at the contracted coordinate … -/
theorem dot_rhs_contr (i : S1024x32.Idx) (q : D.contr.Idx) : (D.rhsIdx i q 0).val = (q ⟨0, Nat.one_pos⟩).val :=
  D.rhsIdx_val_of_single rfl i q

/-- … and at the result's column. -/
theorem dot_rhs_col (i : S1024x32.Idx) (q : D.contr.Idx) : (D.rhsIdx i q 1).val = (i 1).val := by
  unfold DotDims.rhsIdx
  rw [dif_neg (show ¬(1 : Fin S2048x32.rank) ∈ D.rhsBatch from List.not_mem_nil),
    dif_pos (show (1 : Fin S2048x32.rank) ∈ D.rhsNonContracting from List.mem_singleton.mpr rfl)]
  rfl

/-- The product of a [1024, 2048] by a [2048, 32] array accumulated into zero, at (p, q): row p of the left factor
    times column q of the right one, summed over the 2048 contracted coordinates. -/
theorem matmul_zero_apply {φ₁ φ₂ : FTy} (l : FVec Ideal S1024x2048 φ₁) (r : FVec Ideal S2048x32 φ₂) (p : Fin 1024) (q : Fin 32) :
    FloatOps.matmul D none l r (constant (F := Ideal) S1024x32 .f32 0x00000000#32) (ix2 p q)
      = ∑ k : Fin 2048, l (ix2 p k) * r (ix2 k q) := by
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx (ix2 p q) ((contrEquiv1 D 2048 rfl rfl).symm k) = ix2 p k :=
    funext fun a => Fin.ext (by
      match a with
      | ⟨0, _⟩ => exact dot_lhs_row _ _
      | ⟨1, _⟩ => exact (dot_lhs_contr _ _).trans hk)
  have er : D.rhsIdx (ix2 p q) ((contrEquiv1 D 2048 rfl rfl).symm k) = ix2 k q :=
    funext fun a => Fin.ext (by
      match a with
      | ⟨0, _⟩ => exact (dot_rhs_contr _ _).trans hk
      | ⟨1, _⟩ => exact dot_rhs_col _ _)
  rw [el, er]

/-- What the body stores into the band at (x, e): the band's element plus the tile product there (the changes of
    format and the casts of a shape to itself are the identity on extended reals). -/
theorem pay4_apply (a : Vec Ideal S1024x2048 .f32) (it : Vec Ideal S2048x32 .f32) (v : Vec Ideal S1024x32 .f32) (x : Fin 1024) (e : Fin 32) :
    k0_pay4 (F := Ideal) a it v (ix2 x e) = v (ix2 x e) + ∑ k : Fin 2048, a (ix2 x k) * it (ix2 k e) := by
  unfold k0_pay4 k0_pay3
  simp only [shapeCast_self]
  rw [addf_apply]
  refine congrArg (v (ix2 x e) + ·) ?_
  exact (matmul_zero_apply _ _ x e)

/-! ## One point's step at an element -/

/-- The grid's coordinates at point t are t / 8 and t % 8. -/
theorem coords_facts : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The block indices at point t: the A tile at (t / 8, t % 8), the item block at t % 8, the accumulator's one block at 0. -/
theorem idx_facts : ∀ t : Fin cfg0.N, win0_0.index t (0 : Fin 2) = t.val / 8 ∧ win0_0.index t (1 : Fin 2) = t.val % 8
    ∧ win0_2.index t (0 : Fin 2) = t.val % 8 ∧ win0_2.index t (1 : Fin 2) = 0
    ∧ win0_3.index t (0 : Fin 2) = 0 ∧ win0_3.index t (1 : Fin 2) = 0 :=
  (by decide +kernel : ∀ t : Fin grid0.N, win0_0.index t (0 : Fin 2) = t.val / 8 ∧ win0_0.index t (1 : Fin 2) = t.val % 8
    ∧ win0_2.index t (0 : Fin 2) = t.val % 8 ∧ win0_2.index t (1 : Fin 2) = 0
    ∧ win0_3.index t (0 : Fin 2) = 0 ∧ win0_3.index t (1 : Fin 2) = 0)

/-- On the band of rows the point owns, the step adds the tile product. -/
theorem stepU_in (i : grid0.Coords) (a : Vec Ideal S1024x2048 .f32) (it : Vec Ideal S2048x32 .f32) (p : Vec Ideal S8192x32 .f32)
    (r : Fin 8192) (e : Fin 32) (x : Fin 1024) (hr : r.val = 1024 * (i 0).val + x.val) :
    stepU0 i a it p (ix2 r e) = p (ix2 r e) + ∑ k : Fin 2048, a (ix2 x k) * it (ix2 k e) := by
  have hemb : (rU0 i).emb (ix2 x e) = ix2 r e := funext fun b => Fin.ext (by
    match b with
    | ⟨0, _⟩ =>
      show (k0_off1 i) 0 + 1 * x.val = r.val
      rw [k0_off1_eq]
      show 1024 * (i 0).val + 1 * x.val = r.val
      omega
    | ⟨1, _⟩ =>
      show (k0_off1 i) 1 + 1 * e.val = e.val
      rw [k0_off1_eq]
      show 0 + 1 * e.val = e.val
      omega)
  unfold stepU0
  rw [← hemb, Rect.overlay_emb, View.ld_unit_zero (S := S1024x2048) hzr0, View.ld_unit_zero (S := S2048x32) hzr0, pay4_apply]
  rfl

/-- Off that band the step changes nothing. -/
theorem stepU_off (i : grid0.Coords) (a : Vec Ideal S1024x2048 .f32) (it : Vec Ideal S2048x32 .f32) (p : Vec Ideal S8192x32 .f32)
    (r : Fin 8192) (e : Fin 32) (hr : r.val / 1024 ≠ (i 0).val) :
    stepU0 i a it p (ix2 r e) = p (ix2 r e) := by
  unfold stepU0
  refine Rect.overlay_of_not_mem _ _ _ ?_
  rw [Rect.mem_set_unit]
  intro hall
  have h0 := hall 0
  rw [k0_off1_eq] at h0
  have h1 : 1024 * (i 0).val ≤ r.val ∧ r.val < 1024 * (i 0).val + 1024 := h0
  omega

/-! ## The blocks a point reads -/

/-- The link matrix and the item table as total functions of natural coordinates, zero outside their extents. -/
def gA (A : FVec Ideal S8192x16384 .f32) (r k : ℕ) : EReal :=
  if h : r < 8192 ∧ k < 16384 then A (ix2 ⟨r, h.1⟩ ⟨k, h.2⟩) else 0
def gI (I : FVec Ideal S16384x32 .f32) (k e : ℕ) : EReal :=
  if h : k < 16384 ∧ e < 32 then I (ix2 ⟨k, h.1⟩ ⟨e, h.2⟩) else 0

section Blocks
variable (V : (c : Dev nD) → (b : Ref sig .tc) → Buf (Elt Ideal) ((c : Thread nD τ).loc b)) (c : Dev nD)

/-- The A tile at a point, element by element. -/
theorem blkA (A : FVec Ideal S8192x16384 .f32) (hA : V c (Pipeline.arrRef spec0 0) = A) (t : Fin cfg0.N) (x : Fin 1024) (k : Fin 2048) :
    iblk0 V c 0 t (ix2 x k) = gA A (1024 * (t.val / 8) + x.val) (2048 * (t.val % 8) + k.val) := by
  subst hA
  obtain ⟨e0, e1, -, -, -, -⟩ := idx_facts t
  have hN : t.val < 64 := lt_of_lt_of_eq t.isLt (show cfg0.N = 64 from N_0)
  have hx := x.isLt
  have hk := k.isLt
  unfold gA
  rw [dif_pos ⟨by omega, by omega⟩]
  unfold iblk0
  show V c (Pipeline.arrRef spec0 0) (((cfg0.win 0).blk t).view.emb (ix2 x k)) = _
  congr 1
  funext a; apply Fin.ext
  match a with
  | ⟨0, _⟩ => show win0_0.index t (0 : Fin 2) * 1024 + 1 * x.val = 1024 * (t.val / 8) + x.val; omega
  | ⟨1, _⟩ => show win0_0.index t (1 : Fin 2) * 2048 + 1 * k.val = 2048 * (t.val % 8) + k.val; omega

/-- The item block at a point, element by element. -/
theorem blkI (I : FVec Ideal S16384x32 .f32) (hI : V c (Pipeline.arrRef spec0 2) = I) (t : Fin cfg0.N) (k : Fin 2048) (e : Fin 32) :
    iblk0 V c 2 t (ix2 k e) = gI I (2048 * (t.val % 8) + k.val) e.val := by
  subst hI
  obtain ⟨-, -, e2, e3, -, -⟩ := idx_facts t
  have hN : t.val < 64 := lt_of_lt_of_eq t.isLt (show cfg0.N = 64 from N_0)
  have hk := k.isLt
  have he := e.isLt
  unfold gI
  rw [dif_pos ⟨by omega, by omega⟩]
  unfold iblk0
  show V c (Pipeline.arrRef spec0 2) (((cfg0.win 2).blk t).view.emb (ix2 k e)) = _
  congr 1
  funext a; apply Fin.ext
  match a with
  | ⟨0, _⟩ => show win0_2.index t (0 : Fin 2) * 2048 + 1 * k.val = 2048 * (t.val % 8) + k.val; omega
  | ⟨1, _⟩ => show win0_2.index t (1 : Fin 2) * 32 + 1 * e.val = e.val; omega

end Blocks

/-! ## The closed form, by induction on the point -/

section Closed
variable (V : (c : Dev nD) → (b : Ref sig .tc) → Buf (Elt Ideal) ((c : Thread nD τ).loc b)) (c : Dev nD)
variable (A : FVec Ideal S8192x16384 .f32) (I : FVec Ideal S16384x32 .f32)

/-- One point's step at an element: on the point's row band the element gains the products over the point's block of
    columns; elsewhere it is kept. -/
theorem stepU_at (hA : V c (Pipeline.arrRef spec0 0) = A) (hI : V c (Pipeline.arrRef spec0 2) = I) (t : Fin cfg0.N) (p : Vec Ideal S8192x32 .f32) (r : Fin 8192) (e : Fin 32) :
    stepU0 (grid0.coords t) (iblk0 V c 0 t) (iblk0 V c 2 t) p (ix2 r e)
      = if r.val / 1024 = t.val / 8 then
          p (ix2 r e) + ∑ k ∈ Finset.range 2048, gA A r.val (2048 * (t.val % 8) + k) * gI I (2048 * (t.val % 8) + k) e.val
        else p (ix2 r e) := by
  obtain ⟨c0, c1⟩ := coords_facts t
  have hr := r.isLt
  by_cases h : r.val / 1024 = t.val / 8
  · rw [if_pos h]
    have hx : 1024 * (t.val / 8) + (r.val - 1024 * (t.val / 8)) = r.val := by omega
    refine (stepU_in (grid0.coords t) _ _ p r e ⟨r.val - 1024 * (t.val / 8), by omega⟩ (by rw [c0]; exact hx.symm)).trans ?_
    refine congrArg (p (ix2 r e) + ·) ?_
    rw [Finset.sum_range]
    refine Finset.sum_congr rfl fun k _ => ?_
    rw [blkA V c A hA, blkI V c I hI]
    show gA A (1024 * (t.val / 8) + (r.val - 1024 * (t.val / 8))) _ * _ = _
    rw [hx]
  · rw [if_neg h]
    exact stepU_off (grid0.coords t) _ _ p r e (by rw [c0]; exact h)

/-- The cleared accumulator is zero everywhere. -/
theorem zeroU_apply (j : S8192x32.Idx) : zeroU0 (F := Ideal) j = 0 := by
  show Ideal.ofBits .f32 0x00000000#32 = 0
  exact Ideal.ofBits_zero_f32

/-- How many blocks of 2048 columns have been added to row band `b` once point `n` is done: all eight for a band before
    the point's, the point's column block and those before it for its own band, none for a later band. -/
def J (b n : ℕ) : ℕ := min 8 (n + 1 - 8 * b)

theorem J_in (b n : ℕ) (h : b = (n + 1) / 8) : 2048 * J b (n + 1) = 2048 * J b n + 2048 ∧ 2048 * ((n + 1) % 8) = 2048 * J b n := by
  unfold J; omega
theorem J_off (b n : ℕ) (h : b ≠ (n + 1) / 8) : J b (n + 1) = J b n := by
  unfold J; omega
theorem J_zero (b : ℕ) : 2048 * J b 0 = if b = 0 then 2048 else 0 := by
  unfold J; split <;> omega
theorem J_last (b : ℕ) (h : b < 8) : 2048 * J b 63 = 16384 := by
  unfold J; omega

/-- THE CLOSED FORM of the accumulator after point `n`: each element holds the products over the columns added so far. -/
theorem accU_closed (hA : V c (Pipeline.arrRef spec0 0) = A) (hI : V c (Pipeline.arrRef spec0 2) = I) : ∀ (n : ℕ) (hn : n < cfg0.N) (r : Fin 8192) (e : Fin 32),
    accU0 V c n hn (ix2 r e) = ∑ k ∈ Finset.range (2048 * J (r.val / 1024) n), gA A r.val k * gI I k e.val
  | 0, hn, r, e => by
    show stepU0 (grid0.coords ⟨0, hn⟩) (iblk0 V c 0 ⟨0, hn⟩) (iblk0 V c 2 ⟨0, hn⟩) zeroU0 (ix2 r e) = _
    rw [stepU_at V c A I hA hI, zeroU_apply, J_zero]
    show (if r.val / 1024 = 0 / 8 then (0 : EReal) + ∑ k ∈ Finset.range 2048, gA A r.val (2048 * (0 % 8) + k) * gI I (2048 * (0 % 8) + k) e.val else 0) = _
    by_cases h : r.val / 1024 = 0
    · rw [if_pos (by omega), if_pos h, zero_add]
      refine Finset.sum_congr rfl fun k _ => ?_
      rw [show 2048 * (0 % 8) + k = k by omega]
    · rw [if_neg (by omega), if_neg h, Finset.range_zero, Finset.sum_empty]
  | n + 1, hn, r, e => by
    show stepU0 (grid0.coords ⟨n + 1, hn⟩) (iblk0 V c 0 ⟨n + 1, hn⟩) (iblk0 V c 2 ⟨n + 1, hn⟩) (accU0 V c n (Nat.lt_of_succ_lt hn)) (ix2 r e) = _
    rw [stepU_at V c A I hA hI, accU_closed hA hI n (Nat.lt_of_succ_lt hn) r e]
    show (if r.val / 1024 = (n + 1) / 8 then _ + ∑ k ∈ Finset.range 2048, gA A r.val (2048 * ((n + 1) % 8) + k) * gI I (2048 * ((n + 1) % 8) + k) e.val else _) = _
    by_cases h : r.val / 1024 = (n + 1) / 8
    · obtain ⟨j1, j2⟩ := J_in _ n h
      rw [if_pos h, j1, Finset.sum_range_add, j2]
    · rw [if_neg h, J_off _ n h]

end Closed

/-! ## The end of the region -/

section Final
variable (V : (c : Dev nD) → (b : Ref sig .tc) → Buf (Elt Ideal) ((c : Thread nD τ).loc b)) (c : Dev nD)
variable (A : FVec Ideal S8192x16384 .f32) (I : FVec Ideal S16384x32 .f32)

/-- Over all 16384 columns the total-form sum is the round's user-side result. -/
theorem sum_full (r : Fin 8192) (e : Fin 32) :
    ∑ k ∈ Finset.range 16384, gA A r.val k * gI I k e.val = Cert.Spec.propU A I (ix2 r e) := by
  rw [Cert.Spec.propU_apply, Finset.sum_range]
  refine Finset.sum_congr rfl fun k _ => ?_
  unfold gA gI
  rw [dif_pos ⟨r.isLt, k.isLt⟩, dif_pos ⟨k.isLt, e.isLt⟩]

/-- The accumulator's one block is the whole array: an element of the block sits at its own coordinates. -/
theorem embU (t : Fin cfg0.N) (r : Fin 8192) (e : Fin 32) : ((cfg0.win 3).blk t).view.emb (ix2 r e) = ix2 r e := by
  obtain ⟨-, -, -, -, e4, e5⟩ := idx_facts t
  funext a; apply Fin.ext
  match a with
  | ⟨0, _⟩ => show win0_3.index t (0 : Fin 2) * 8192 + 1 * r.val = r.val; omega
  | ⟨1, _⟩ => show win0_3.index t (1 : Fin 2) * 32 + 1 * e.val = e.val; omega

/-- So the block of any array contents, read back, is those contents. -/
theorem read_blkU (G : FVec Ideal S8192x32 .f32) (t : Fin cfg0.N) (r : Fin 8192) (e : Fin 32) :
    View.read (Elt Ideal) ((cfg0.win 3).blk t).view G (ix2 r e) = G (ix2 r e) :=
  (rfl : _ = G (((cfg0.win 3).blk t).view.emb (ix2 r e))).trans (congrArg G (embU t r e))

end Final

end ValueU0

open ValueU0 in
/-- THE VALUE of round 0's user-side result: after the region the array of output window 3 holds A · I. -/
theorem finalU0 (V : (c : Dev nD) → (b : Ref sig .tc) → Buf (Elt Ideal) ((c : Thread nD τ).loc b)) (c : Dev nD)
    (A : FVec Ideal S8192x16384 .f32) (I : FVec Ideal S16384x32 .f32)
    (hA : V c (Pipeline.arrRef spec0 0) = A) (hI : V c (Pipeline.arrRef spec0 2) = I) :
    (dat0 (F := Ideal) V c).arrAt 3 cfg0.N = Cert.Spec.propU A I := by
  refine Dat.arrAt_eq_of_cover (dat0 (F := Ideal) V c) 3 (Cert.Spec.propU A I) (fun t hf => ?_) (fun i => ?_)
  · have h63 : t.val = 63 := by
      have hN : t.val < 64 := lt_of_lt_of_eq t.isLt (show cfg0.N = 64 from N_0)
      have := (flush0_3 t).mp hf
      omega
    show (cfg0.win 3).cut (grid0.coords t) ((dat0 (F := Ideal) V c).after 3 t) = _
    rw [after0_3]
    funext y
    obtain ⟨r, e, rfl⟩ : ∃ (r : Fin 8192) (e : Fin 32), y = ix2 r e := ⟨y 0, y 1, eq_ix2 y⟩
    rw [read_blkU]
    show accU0 V c t.val t.isLt (ix2 r e) = _
    rw [accU_closed V c A I hA hI, h63, J_last _ (by have := r.isLt; omega), sum_full]
  · obtain ⟨r, e, rfl⟩ : ∃ (r : Fin 8192) (e : Fin 32), i = ix2 r e := ⟨i 0, i 1, eq_ix2 i⟩
    have h63 : 63 < cfg0.N := lt_of_lt_of_eq (by decide) (show 64 = cfg0.N from N_0.symm)
    refine ⟨⟨63, h63⟩, (flush0_3 _).mpr rfl, ?_⟩
    rw [← embU ⟨63, h63⟩ r e]
    exact View.emb_mem_set _ _

end Cert.KernelIdeal.Hand

end
-- ==== Proof.KI.ValueI0.lean ====
/-
  The value of the item-side result of propagation round 0 (rounds are numbered 0, 1, 2), over the extended reals.
  With A the 8192 × 16384 link matrix and U the 8192 × 32 user-side table the region finds in its first two arrays,
  the array of the region's last window ends holding the transposed product
      (Aᵀ · U)(s, e) = ∑ k < 8192, A(k, s) · U(k, e).
  The grid has 8 × 8 points; point t has row block t / 8 (1024 rows of A) and column block t % 8 (2048 columns of A).
  At point t the item-side accumulator gains, on rows [2048 · (t % 8), 2048 · (t % 8) + 2048), the product of the
  transposed tile with the user block: entry (s, e) of that band gains ∑ k < 1024, A(1024 · (t / 8) + k, s) · U(1024 · (t / 8) + k, e).
  The points run through the column blocks fastest, so after point n row band b has received the row blocks
  0, …, M b n − 1 in order, where M b n = n / 8 + (1 if b ≤ n % 8, else 0); hence after point n the entry (s, e) is
  the sum over the first 1024 · M (s / 2048) n rows. After the last point M = 8 for every band and the sum is over all
  8192 rows. Sums are taken in the extended reals, where addition is a commutative monoid and the product commutes; no
  finiteness is used.
-/
import proofs.«178445_j35003983462547_1_alg».proof.Proof.KI.Dat0
import proofs.«178445_j35003983462547_1_alg».proof.Proof.Spec
import Idealize.ShloMosaic.Lib.ValueIdx
import Idealize.ShloMosaic.PureOps.Ideal.Laws
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open scoped BigOperators

namespace ValueI0

/-! ## The tile product at an index -/

/-- The dimension numbers of the item-side product, abbreviated: both operands contracted along their first axis. -/
abbrev DI := dot_S1024x2048_S1024x32_S2048x32_0_0_1_1_n_n

theorem lhs_contr (j : S2048x32.Idx) (q : DI.contr.Idx) :
    (DI.lhsIdx j q 0).val = (q ⟨0, Nat.one_pos⟩).val :=
  DI.lhsIdx_val_of_single rfl j q

theorem lhs_col (j : S2048x32.Idx) (q : DI.contr.Idx) :
    (DI.lhsIdx j q 1).val = (j 0).val := by
  unfold DotDims.lhsIdx
  rw [dif_neg (show ¬(1 : Fin S1024x2048.rank) ∈ DI.lhsBatch from List.not_mem_nil),
    dif_pos (show (1 : Fin S1024x2048.rank) ∈ DI.lhsNonContracting from List.mem_singleton.mpr rfl)]
  rfl

theorem rhs_contr (j : S2048x32.Idx) (q : DI.contr.Idx) :
    (DI.rhsIdx j q 0).val = (q ⟨0, Nat.one_pos⟩).val :=
  DI.rhsIdx_val_of_single rfl j q

theorem rhs_col (j : S2048x32.Idx) (q : DI.contr.Idx) :
    (DI.rhsIdx j q 1).val = (j 1).val := by
  unfold DotDims.rhsIdx
  rw [dif_neg (show ¬(1 : Fin S1024x32.rank) ∈ DI.rhsBatch from List.not_mem_nil),
    dif_pos (show (1 : Fin S1024x32.rank) ∈ DI.rhsNonContracting from List.mem_singleton.mpr rfl)]
  rfl

/-- The product of the transposed `[1024, 2048]` tile with a `[1024, 32]` block, accumulated into zero, at `(x, e)`:
    the sum over the shared row coordinate `k` of the tile at `(k, x)` times the block at `(k, e)`. -/
theorem matmulT_zero_apply {φ₁ φ₂ : FTy} (l : FVec Ideal S1024x2048 φ₁) (r : FVec Ideal S1024x32 φ₂)
    (x : Fin 2048) (e : Fin 32) :
    FloatOps.matmul DI none l r (constant (F := Ideal) S2048x32 .f32 0x00000000#32) (ix2 x e)
      = ∑ k : Fin 1024, l (ix2 k x) * r (ix2 k e) := by
  rw [Ideal.matmul_constant_zero_apply, ← Equiv.sum_comp (contrEquiv1 DI 1024 rfl rfl).symm]
  refine Finset.sum_congr rfl fun k _ => ?_
  have hk := contrEquiv1_symm_val DI 1024 rfl rfl k
  have el : DI.lhsIdx (ix2 x e) ((contrEquiv1 DI 1024 rfl rfl).symm k) = ix2 k x :=
    funext fun a => Fin.ext (by
      match a with
      | ⟨0, _⟩ => exact (lhs_contr _ _).trans hk
      | ⟨1, _⟩ => exact lhs_col _ _)
  have er : DI.rhsIdx (ix2 x e) ((contrEquiv1 DI 1024 rfl rfl).symm k) = ix2 k e :=
    funext fun a => Fin.ext (by
      match a with
      | ⟨0, _⟩ => exact (rhs_contr _ _).trans hk
      | ⟨1, _⟩ => exact rhs_col _ _)
  rw [el, er]

/-! ## The grid's points and the band each one owns -/

/-- Point `t` of the 8 × 8 grid has row-block coordinate `t / 8` and column-block coordinate `t % 8`. -/
theorem coords_val : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The band of the item-side accumulator that point `t` updates starts at row `2048 · (t % 8)`. -/
theorem off2_val : ∀ t : Fin cfg0.N, k0_off2 (grid0.coords t) 0 = 2048 * (t.val % 8) ∧ k0_off2 (grid0.coords t) 1 = 0 :=
  (by decide +kernel : ∀ t : Fin grid0.N, k0_off2 (grid0.coords t) 0 = 2048 * (t.val % 8) ∧ k0_off2 (grid0.coords t) 1 = 0)

/-! ## The payload at an index -/

/-- What the point stores into its band, at local row `x` and column `e`: the band's previous entry plus the sum over
    the tile's rows `k` of the tile at `(k, x)` times the user block at `(k, e)`. The narrowing of the operands is the
    identity on extended reals and a reshape to the same shape changes nothing. -/
theorem pay5_apply (a : Vec Ideal S1024x2048 .f32) (u : Vec Ideal S1024x32 .f32) (v : Vec Ideal S2048x32 .f32)
    (x : Fin 2048) (e : Fin 32) :
    k0_pay5 (F := Ideal) a u v (ix2 x e) = v (ix2 x e) + ∑ k : Fin 1024, a (ix2 k x) * u (ix2 k e) := by
  unfold k0_pay5 k0_pay3
  simp only [shapeCast_self]
  rw [addf_apply]
  refine congrArg (v (ix2 x e) + ·) ?_
  exact matmulT_zero_apply _ _ x e

/-! ## The arrays at natural-number coordinates, and the blocks a point reads -/

/-- The link matrix at natural-number coordinates, zero outside its extents: sums over ranges of naturals can then be
    split and joined without carrying bounds. -/
def gA (A : FVec Ideal S8192x16384 .f32) (k s : ℕ) : EReal :=
  if h : k < 8192 ∧ s < 16384 then A (ix2 ⟨k, h.1⟩ ⟨s, h.2⟩) else 0

/-- The user-side table likewise. -/
def gU (U : FVec Ideal S8192x32 .f32) (k e : ℕ) : EReal :=
  if h : k < 8192 ∧ e < 32 then U (ix2 ⟨k, h.1⟩ ⟨e, h.2⟩) else 0

theorem gA_eq (A : FVec Ideal S8192x16384 .f32) (i : S8192x16384.Idx) : A i = gA A (i 0).val (i 1).val := by
  unfold gA
  rw [dif_pos ⟨idx2_lt0 i, idx2_lt1 i⟩]
  exact congrArg A (eq_ix2 i)

theorem gU_eq (U : FVec Ideal S8192x32 .f32) (i : S8192x32.Idx) : U i = gU U (i 0).val (i 1).val := by
  unfold gU
  rw [dif_pos ⟨idx2_lt0 i, idx2_lt1 i⟩]
  exact congrArg U (eq_ix2 i)

/-- The block of the link matrix at point `t` is block `(t / 8, t % 8)`, the block of the user table block `t / 8`. -/
theorem idx0_val : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
theorem idx1_val : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)

section Blocks
variable (V : (c : Dev nD) → (b : Ref sig .tc) → Buf (Elt Ideal) ((c : Thread nD τ).loc b)) (c : Dev nD)

/-- The tile of the link matrix a point reads, at local `(k, x)`: the matrix at row `1024 · (t / 8) + k` and column
    `2048 · (t % 8) + x`. -/
theorem blkA_apply (A : FVec Ideal S8192x16384 .f32) (hA : V c (Pipeline.arrRef spec0 0) = A) (t : Fin cfg0.N)
    (k : Fin 1024) (x : Fin 2048) :
    (iblk0 V c 0 t : Vec Ideal S1024x2048 .f32) (ix2 k x) = gA A (1024 * (t.val / 8) + k.val) (2048 * (t.val % 8) + x.val) := by
  unfold iblk0
  rw [hA]
  show A (((cfg0.win 0).blk t).view.emb (ix2 k x)) = _
  refine (gA_eq A _).trans ?_
  have h0 : ((((cfg0.win 0).blk t).view.emb (ix2 k x)) 0).val = 1024 * (t.val / 8) + k.val := by
    show win0_0.index t (0 : Fin 2) * 1024 + 1 * k.val = _
    rw [(idx0_val t).1]; omega
  have h1 : ((((cfg0.win 0).blk t).view.emb (ix2 k x)) 1).val = 2048 * (t.val % 8) + x.val := by
    show win0_0.index t (1 : Fin 2) * 2048 + 1 * x.val = _
    rw [(idx0_val t).2]; omega
  rw [h0, h1]

/-- The block of the user table a point reads, at local `(k, e)`: the table at row `1024 · (t / 8) + k`, column `e`. -/
theorem blkU_apply (U : FVec Ideal S8192x32 .f32) (hU : V c (Pipeline.arrRef spec0 1) = U) (t : Fin cfg0.N)
    (k : Fin 1024) (e : Fin 32) :
    (iblk0 V c 1 t : Vec Ideal S1024x32 .f32) (ix2 k e) = gU U (1024 * (t.val / 8) + k.val) e.val := by
  unfold iblk0
  rw [hU]
  show U (((cfg0.win 1).blk t).view.emb (ix2 k e)) = _
  refine (gU_eq U _).trans ?_
  have h0 : ((((cfg0.win 1).blk t).view.emb (ix2 k e)) 0).val = 1024 * (t.val / 8) + k.val := by
    show win0_1.index t (0 : Fin 2) * 1024 + 1 * k.val = _
    rw [(idx1_val t).1]; omega
  have h1 : ((((cfg0.win 1).blk t).view.emb (ix2 k e)) 1).val = e.val := by
    show win0_1.index t (1 : Fin 2) * 32 + 1 * e.val = _
    rw [(idx1_val t).2]; omega
  rw [h0, h1]

end Blocks

/-! ## One point's step at an index -/

/-- The step at an index, over any tile, user block and previous contents, for a band starting at row `2048 · b`: on the
    band the previous entry plus the tile product, elsewhere the previous entry. -/
theorem stepI_apply (i : grid0.Coords) (b : ℕ) (h0 : k0_off2 i 0 = 2048 * b) (h1 : k0_off2 i 1 = 0)
    (a : Vec Ideal S1024x2048 .f32) (u : Vec Ideal S1024x32 .f32) (p : Vec Ideal S16384x32 .f32)
    (s : Fin 16384) (e : Fin 32) :
    stepI0 i a u p (ix2 s e)
      = if s.val / 2048 = b then
          p (ix2 s e) + ∑ k : Fin 1024, a (ix2 k (⟨s.val % 2048, Nat.mod_lt _ (by decide)⟩ : Fin 2048)) * u (ix2 k e)
        else p (ix2 s e) := by
  unfold stepI0
  by_cases hb : s.val / 2048 = b
  · rw [if_pos hb]
    have hemb : (rI0 i).emb (ix2 (⟨s.val % 2048, Nat.mod_lt _ (by decide)⟩ : Fin 2048) e) = ix2 s e := by
      funext d; apply Fin.ext
      match d with
      | ⟨0, _⟩ => show k0_off2 i 0 + 1 * (s.val % 2048) = s.val; rw [h0]; omega
      | ⟨1, _⟩ => show k0_off2 i 1 + 1 * e.val = e.val; rw [h1]; omega
    refine (congrArg ((rI0 i).overlay p _) hemb.symm).trans ?_
    rw [Rect.overlay_emb, View.ld_unit_zero (S := S1024x2048) hzr0, View.ld_unit_zero (S := S1024x32) hzr0, pay5_apply]
    refine congrArg (· + _) ?_
    show p ((rI0 i).emb (ix2 _ e)) = p (ix2 s e)
    rw [hemb]
  · rw [if_neg hb]
    refine Rect.overlay_of_not_mem _ _ _ ?_
    intro hm
    have h2 : k0_off2 i 0 ≤ s.val ∧ s.val < k0_off2 i 0 + 2048 := (Rect.mem_set_unit.mp hm) 0
    rw [h0] at h2; omega

section Fold
variable (V : (c : Dev nD) → (b : Ref sig .tc) → Buf (Elt Ideal) ((c : Thread nD τ).loc b)) (c : Dev nD)
variable (A : FVec Ideal S8192x16384 .f32) (U : FVec Ideal S8192x32 .f32)
variable (hA : V c (Pipeline.arrRef spec0 0) = A) (hU : V c (Pipeline.arrRef spec0 1) = U)
include hA hU

/-- The step at point `t` in terms of the arrays: rows `2048 · (t % 8)` onward of the accumulator gain the products of
    rows `1024 · (t / 8)` onward of the link matrix's column `s` with the same rows of the user table's column `e`. -/
theorem step_point (t : Fin cfg0.N) (p : Vec Ideal S16384x32 .f32) (s : Fin 16384) (e : Fin 32) :
    stepI0 (grid0.coords t) (iblk0 V c 0 t) (iblk0 V c 1 t) p (ix2 s e)
      = if s.val / 2048 = t.val % 8 then
          p (ix2 s e) + ∑ k ∈ Finset.range 1024, gA A (1024 * (t.val / 8) + k) s.val * gU U (1024 * (t.val / 8) + k) e.val
        else p (ix2 s e) := by
  refine (stepI_apply (grid0.coords t) (t.val % 8) (off2_val t).1 (off2_val t).2 _ _ p s e).trans ?_
  by_cases hb : s.val / 2048 = t.val % 8
  · rw [if_pos hb, if_pos hb]
    refine congrArg (p (ix2 s e) + ·) ?_
    rw [← Fin.sum_univ_eq_sum_range (fun k => gA A (1024 * (t.val / 8) + k) s.val * gU U (1024 * (t.val / 8) + k) e.val) 1024]
    refine Finset.sum_congr rfl fun k _ => ?_
    rw [blkA_apply V c A hA t k _, blkU_apply V c U hU t k e]
    have hs : 2048 * (t.val % 8) + s.val % 2048 = s.val := by omega
    show gA A _ (2048 * (t.val % 8) + s.val % 2048) * _ = _
    rw [hs]
  · rw [if_neg hb, if_neg hb]

/-- If the accumulator holds, in every row band `b`, the products of the first `1024 · m b` rows, and the point's row
    block is the next one for its own band, then after the point that band holds one block more. -/
theorem step_closed (t : Fin cfg0.N) (p : Vec Ideal S16384x32 .f32) (m : ℕ → ℕ)
    (hp : ∀ (s : Fin 16384) (e : Fin 32), p (ix2 s e) = ∑ k ∈ Finset.range (1024 * m (s.val / 2048)), gA A k s.val * gU U k e.val)
    (hm : m (t.val % 8) = t.val / 8) (s : Fin 16384) (e : Fin 32) :
    stepI0 (grid0.coords t) (iblk0 V c 0 t) (iblk0 V c 1 t) p (ix2 s e)
      = ∑ k ∈ Finset.range (1024 * (m (s.val / 2048) + if s.val / 2048 = t.val % 8 then 1 else 0)), gA A k s.val * gU U k e.val := by
  rw [step_point V c A U hA hU t p s e, hp s e]
  by_cases hb : s.val / 2048 = t.val % 8
  · rw [if_pos hb, if_pos hb, Nat.mul_add, Nat.mul_one, Finset.sum_range_add, hb, hm]
  · rw [if_neg hb, if_neg hb, Nat.add_zero]

/-- How many row blocks of 1024 have been added to row band `b` of the accumulator after point `n`: the points
    `8 · q + b` with `8 · q + b ≤ n`. -/
def M (b n : ℕ) : ℕ := n / 8 + if b ≤ n % 8 then 1 else 0

/-- THE CLOSED FORM: after point `n` the accumulator at `(s, e)` is the sum over the first `1024 · M (s / 2048) n` rows. -/
theorem acc_closed : ∀ (n : ℕ) (hn : n < cfg0.N) (s : Fin 16384) (e : Fin 32),
    accI0 V c n hn (ix2 s e) = ∑ k ∈ Finset.range (1024 * M (s.val / 2048) n), gA A k s.val * gU U k e.val
  | 0, hn, s, e => by
    refine (step_closed V c A U hA hU ⟨0, hn⟩ zeroI0 (fun _ => 0) (fun s e => ?_) (Nat.zero_div 8).symm s e).trans ?_
    · show Ideal.ofBits .f32 0x00000000#32 = _
      rw [Ideal.ofBits_zero_f32, Nat.mul_zero, Finset.range_zero, Finset.sum_empty]
    · have hs : s.val / 2048 < 8 := by omega
      have : (0 + if s.val / 2048 = 0 % 8 then 1 else 0) = M (s.val / 2048) 0 := by
        unfold M; split_ifs <;> omega
      show ∑ k ∈ Finset.range (1024 * (0 + if s.val / 2048 = 0 % 8 then 1 else 0)), _ = _
      rw [this]
  | n + 1, hn, s, e => by
    refine (step_closed V c A U hA hU ⟨n + 1, hn⟩ (accI0 V c n (Nat.lt_of_succ_lt hn)) (fun b => M b n)
      (fun s e => acc_closed n _ s e) ?_ s e).trans ?_
    · show M ((n + 1) % 8) n = (n + 1) / 8
      unfold M; split_ifs <;> omega
    · have hs : s.val / 2048 < 8 := by omega
      have : (M (s.val / 2048) n + if s.val / 2048 = (n + 1) % 8 then 1 else 0) = M (s.val / 2048) (n + 1) := by
        unfold M; split_ifs <;> omega
      show ∑ k ∈ Finset.range (1024 * (M (s.val / 2048) n + if s.val / 2048 = (n + 1) % 8 then 1 else 0)), _ = _
      rw [this]

end Fold

/-! ## The array after the region -/

/-- The item-side result window has ONE block, the whole array: its block index is `(0, 0)` at every point. -/
theorem idx4_val : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- So an index of the block is the same index of the array. -/
theorem blk4_emb (t : Fin cfg0.N) (j : S16384x32.Idx) : ((cfg0.win 4).blk t).view.emb j = j := by
  funext a; apply Fin.ext
  match a with
  | ⟨0, _⟩ => show win0_4.index t (0 : Fin 2) * 16384 + 1 * (j 0).val = (j 0).val; rw [(idx4_val t).1]; omega
  | ⟨1, _⟩ => show win0_4.index t (1 : Fin 2) * 32 + 1 * (j 1).val = (j 1).val; rw [(idx4_val t).2]; omega

section Final
variable (V : (c : Dev nD) → (b : Ref sig .tc) → Buf (Elt Ideal) ((c : Thread nD τ).loc b)) (c : Dev nD)
variable (A : FVec Ideal S8192x16384 .f32) (U : FVec Ideal S8192x32 .f32)
variable (hA : V c (Pipeline.arrRef spec0 0) = A) (hU : V c (Pipeline.arrRef spec0 1) = U)
include hA hU

/-- After the last point every row band has received all eight row blocks: the accumulator is the transposed product. -/
theorem acc_last (t : Fin cfg0.N) (ht : t.val = 63) : accI0 V c t.val t.isLt = Cert.Spec.propI A U := by
  funext j
  obtain ⟨s, e, rfl⟩ : ∃ (s : Fin 16384) (e : Fin 32), j = ix2 s e := ⟨j 0, j 1, eq_ix2 j⟩
  rw [acc_closed V c A U hA hU t.val t.isLt s e, Cert.Spec.propI_apply]
  have hs : s.val / 2048 < 8 := by omega
  have h8 : 1024 * M (s.val / 2048) t.val = 8192 := by
    rw [ht]; unfold M; split_ifs <;> omega
  rw [h8, ← Fin.sum_univ_eq_sum_range (fun k => gA A k s.val * gU U k e.val) 8192]
  refine Finset.sum_congr rfl fun k _ => ?_
  rw [gA_eq A (ix2 k s), gU_eq U (ix2 k e)]

end Final

end ValueI0

open ValueI0 in
/-- THE ITEM-SIDE RESULT OF ROUND 0: the region leaves Aᵀ · U in the array of its last window. The window is written back
    once, after the last point, and its one block is the whole array, so the array ends holding the accumulator as the
    last point left it. -/
theorem finalI0 (V : (c : Dev nD) → (b : Ref sig .tc) → Buf (Elt Ideal) ((c : Thread nD τ).loc b)) (c : Dev nD)
    (A : FVec Ideal S8192x16384 .f32) (U : FVec Ideal S8192x32 .f32)
    (hA : V c (Pipeline.arrRef spec0 0) = A) (hU : V c (Pipeline.arrRef spec0 1) = U) :
    (dat0 (F := Ideal) V c).arrAt 4 cfg0.N = Cert.Spec.propI A U := by
  have h63 : 63 < cfg0.N := lt_of_lt_of_eq (by decide : 63 < 64) (show cfg0.N = 64 from N_0).symm
  refine (dat0 (F := Ideal) V c).arrAt_eq_of_cover 4 (Cert.Spec.propI A U) (fun t hf => ?_) (fun i => ?_)
  · have ht : t.val = 63 := by
      have h1 := (flush0_4 t).mp hf
      have h2 : t.val < 64 := lt_of_lt_of_eq t.isLt (show cfg0.N = 64 from N_0)
      omega
    show (dat0 (F := Ideal) V c).after 4 t = _
    rw [after0_4]
    refine (acc_last V c A U hA hU t ht).trans ?_
    funext j
    exact (congrArg (Cert.Spec.propI A U) (blk4_emb t j)).symm
  · exact ⟨⟨63, h63⟩, (flush0_4 _).mpr rfl, Finset.mem_map.mpr ⟨i, Finset.mem_univ _, blk4_emb ⟨63, h63⟩ i⟩⟩

end Cert.KernelIdeal.Hand

end
-- ==== Proof.KI.Final.lean ====
/-
  The idealized kernel's two results, from the three rounds' results.
  Between the regions the program only adds: after round 1 it holds u₀ + u₁ and i₀ + i₁, after round 2 those plus
  u₂ and i₂, and after round 3 it adds u₃ and i₃ and scales both sums by a quarter. Each round's two results are the
  round specification of the round before's (`propU`, `propI`), the first round's of the arguments themselves; the
  link matrix is read by every round and written by none. Walking the buffers' contents through @main, item by item,
  gives the two results as the specification composed three times, and with them the run of the idealized kernel
  with both results named.
-/
import proofs.«178445_j35003983462547_1_alg».proof.Proof.KI.Run
import proofs.«178445_j35003983462547_1_alg».proof.Proof.KI.ValueU0
import proofs.«178445_j35003983462547_1_alg».proof.Proof.KI.ValueI0
import proofs.«178445_j35003983462547_1_alg».proof.Proof.KI.ValueU1
import proofs.«178445_j35003983462547_1_alg».proof.Proof.KI.ValueI1
import proofs.«178445_j35003983462547_1_alg».proof.Proof.KI.ValueU2
import proofs.«178445_j35003983462547_1_alg».proof.Proof.KI.ValueI2
import proofs.«178445_j35003983462547_1_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Final
open Cert.Spec

variable (m : (ℓ : Loc nD τ sig) → Buf (Elt Ideal) ℓ) (ρ : Dev nD → PrngReg)

/-- The three arguments on core `c`: the link matrix, the user-side and the item-side embedding tables. -/
abbrev aA (c : Dev nD) : FVec Ideal S8192x16384 .f32 := m ((c : Thread nD τ).loc main_arg2)
abbrev aU (c : Dev nD) : FVec Ideal S8192x32 .f32 := m ((c : Thread nD τ).loc main_arg0)
abbrev aI (c : Dev nD) : FVec Ideal S16384x32 .f32 := m ((c : Thread nD τ).loc main_arg1)
/-- The rounds' results: each round sends (user table, item table) to (A · item table, Aᵀ · user table). -/
abbrev u1 (c : Dev nD) : FVec Ideal S8192x32 .f32 := propU (aA m c) (aI m c)
abbrev i1 (c : Dev nD) : FVec Ideal S16384x32 .f32 := propI (aA m c) (aU m c)
abbrev u2 (c : Dev nD) : FVec Ideal S8192x32 .f32 := propU (aA m c) (i1 m c)
abbrev i2 (c : Dev nD) : FVec Ideal S16384x32 .f32 := propI (aA m c) (u1 m c)
abbrev u3 (c : Dev nD) : FVec Ideal S8192x32 .f32 := propU (aA m c) (i2 m c)
abbrev i3 (c : Dev nD) : FVec Ideal S16384x32 .f32 := propI (aA m c) (u2 m c)

/-! ### After round 0 -/
theorem W1_arg2 (c : Dev nD) : W1 m ρ c (Proc.devRef .tc main_arg2) = aA m c :=
  (W1_arr m ρ c 0).trans (((dat0 (V0 m ρ) c).arrAt_in 0 rfl _).trans (A_eq0 (V0 m ρ) c 0))
theorem W1_arg0 (c : Dev nD) : W1 m ρ c (Proc.devRef .tc main_arg0) = aU m c :=
  (W1_arr m ρ c 1).trans (((dat0 (V0 m ρ) c).arrAt_in 1 rfl _).trans (A_eq0 (V0 m ρ) c 1))
theorem W1_arg1 (c : Dev nD) : W1 m ρ c (Proc.devRef .tc main_arg1) = aI m c :=
  (W1_arr m ρ c 2).trans (((dat0 (V0 m ρ) c).arrAt_in 2 rfl _).trans (A_eq0 (V0 m ρ) c 2))
theorem W1_v0_0 (c : Dev nD) : W1 m ρ c (Proc.devRef .tc main_v0_0) = u1 m c :=
  (W1_arr m ρ c 3).trans (finalU0 (V0 m ρ) c _ _ rfl rfl)
theorem W1_v0_1 (c : Dev nD) : W1 m ρ c (Proc.devRef .tc main_v0_1) = i1 m c :=
  (W1_arr m ρ c 4).trans (finalI0 (V0 m ρ) c _ _ rfl rfl)

/-! ### After the first pair of sums -/
theorem W2_arg2 (c : Dev nD) : W2 m ρ c (Proc.devRef .tc main_arg2) = aA m c :=
  (StableHlo.after_of_writes_sub hostOps1 _ hostOps1_writes (by decide)).trans (W1_arg2 m ρ c)
theorem W2_v0_0 (c : Dev nD) : W2 m ρ c (Proc.devRef .tc main_v0_0) = u1 m c :=
  (StableHlo.after_of_writes_sub hostOps1 _ hostOps1_writes (by decide)).trans (W1_v0_0 m ρ c)
theorem W2_v0_1 (c : Dev nD) : W2 m ρ c (Proc.devRef .tc main_v0_1) = i1 m c :=
  (StableHlo.after_of_writes_sub hostOps1 _ hostOps1_writes (by decide)).trans (W1_v0_1 m ρ c)
theorem W2_v1 (c : Dev nD) : W2 m ρ c (Proc.devRef .tc main_v1) = addf (aU m c) (u1 m c) := by
  show StableHlo.after hostOps1 (W1 m ρ c) (Proc.devRef .tc main_v1) = _
  after_results
  rw [W1_arg0, W1_v0_0]
theorem W2_v2 (c : Dev nD) : W2 m ρ c (Proc.devRef .tc main_v2) = addf (aI m c) (i1 m c) := by
  show StableHlo.after hostOps1 (W1 m ρ c) (Proc.devRef .tc main_v2) = _
  after_results
  rw [W1_arg1, W1_v0_1]

/-! ### After round 1 -/
theorem W3_arg2 (c : Dev nD) : W3 m ρ c (Proc.devRef .tc main_arg2) = aA m c :=
  (W3_arr m ρ c 0).trans (((dat1 (V2 m ρ) c).arrAt_in 0 rfl _).trans ((A_eq1 (V2 m ρ) c 0).trans (W2_arg2 m ρ c)))
theorem W3_v1 (c : Dev nD) : W3 m ρ c (Proc.devRef .tc main_v1) = addf (aU m c) (u1 m c) :=
  (W3_of_ne m ρ c main_v1 (by decide)).trans (W2_v1 m ρ c)
theorem W3_v2 (c : Dev nD) : W3 m ρ c (Proc.devRef .tc main_v2) = addf (aI m c) (i1 m c) :=
  (W3_of_ne m ρ c main_v2 (by decide)).trans (W2_v2 m ρ c)
theorem W3_v3_0 (c : Dev nD) : W3 m ρ c (Proc.devRef .tc main_v3_0) = u2 m c :=
  (W3_arr m ρ c 3).trans (finalU1 (V2 m ρ) c _ _ (W2_arg2 m ρ c) (W2_v0_1 m ρ c))
theorem W3_v3_1 (c : Dev nD) : W3 m ρ c (Proc.devRef .tc main_v3_1) = i2 m c :=
  (W3_arr m ρ c 4).trans (finalI1 (V2 m ρ) c _ _ (W2_arg2 m ρ c) (W2_v0_0 m ρ c))

/-! ### After the second pair of sums -/
theorem W4_arg2 (c : Dev nD) : W4 m ρ c (Proc.devRef .tc main_arg2) = aA m c :=
  (StableHlo.after_of_writes_sub hostOps2 _ hostOps2_writes (by decide)).trans (W3_arg2 m ρ c)
theorem W4_v3_0 (c : Dev nD) : W4 m ρ c (Proc.devRef .tc main_v3_0) = u2 m c :=
  (StableHlo.after_of_writes_sub hostOps2 _ hostOps2_writes (by decide)).trans (W3_v3_0 m ρ c)
theorem W4_v3_1 (c : Dev nD) : W4 m ρ c (Proc.devRef .tc main_v3_1) = i2 m c :=
  (StableHlo.after_of_writes_sub hostOps2 _ hostOps2_writes (by decide)).trans (W3_v3_1 m ρ c)
theorem W4_v4 (c : Dev nD) : W4 m ρ c (Proc.devRef .tc main_v4) = addf (addf (aU m c) (u1 m c)) (u2 m c) := by
  show StableHlo.after hostOps2 (W3 m ρ c) (Proc.devRef .tc main_v4) = _
  after_results
  rw [W3_v1, W3_v3_0]
theorem W4_v5 (c : Dev nD) : W4 m ρ c (Proc.devRef .tc main_v5) = addf (addf (aI m c) (i1 m c)) (i2 m c) := by
  show StableHlo.after hostOps2 (W3 m ρ c) (Proc.devRef .tc main_v5) = _
  after_results
  rw [W3_v2, W3_v3_1]

/-! ### After round 2 -/
theorem W5_v4 (c : Dev nD) : W5 m ρ c (Proc.devRef .tc main_v4) = addf (addf (aU m c) (u1 m c)) (u2 m c) :=
  (W5_of_ne m ρ c main_v4 (by decide)).trans (W4_v4 m ρ c)
theorem W5_v5 (c : Dev nD) : W5 m ρ c (Proc.devRef .tc main_v5) = addf (addf (aI m c) (i1 m c)) (i2 m c) :=
  (W5_of_ne m ρ c main_v5 (by decide)).trans (W4_v5 m ρ c)
theorem W5_v6_0 (c : Dev nD) : W5 m ρ c (Proc.devRef .tc main_v6_0) = u3 m c :=
  (W5_arr m ρ c 3).trans (finalU2 (V4 m ρ) c _ _ (W4_arg2 m ρ c) (W4_v3_1 m ρ c))
theorem W5_v6_1 (c : Dev nD) : W5 m ρ c (Proc.devRef .tc main_v6_1) = i3 m c :=
  (W5_arr m ρ c 4).trans (finalI2 (V4 m ρ) c _ _ (W4_arg2 m ρ c) (W4_v3_0 m ρ c))

/-! ### The two results -/
/-- The user-side result: the mean of the four layers' user tables, as the sum of the four scaled by a quarter. -/
theorem W6_v10 (c : Dev nD) : W6 m ρ c (Proc.devRef .tc main_v10)
    = mulf (addf (addf (addf (aU m c) (u1 m c)) (u2 m c)) (u3 m c)) (broadcastInDim S8192x32 ![] bcast_S_S8192x32 (constant (F := Ideal) S_ .f32 0x3E800000#32)) := by
  show StableHlo.after hostOps3 (W5 m ρ c) (Proc.devRef .tc main_v10) = _
  after_results
  rw [W5_v4, W5_v6_0]
/-- The item-side result. -/
theorem W6_v12 (c : Dev nD) : W6 m ρ c (Proc.devRef .tc main_v12)
    = mulf (addf (addf (addf (aI m c) (i1 m c)) (i2 m c)) (i3 m c)) (broadcastInDim S16384x32 ![] bcast_S_S16384x32 (constant (F := Ideal) S_ .f32 0x3E800000#32)) := by
  show StableHlo.after hostOps3 (W5 m ρ c) (Proc.devRef .tc main_v12) = _
  after_results
  rw [W5_v5, W5_v6_1]

end Final

section Asm
open Cert.Spec
variable (m : (ℓ : Loc nD τ sig) → Buf (Elt Ideal) ℓ) (ρ : Dev nD → PrngReg)

/-- The idealized kernel's run with both results named: the specification's three rounds, summed with the inputs and scaled. -/
theorem run_value : θ_run (defs (F := Ideal)) (onTc (τ := τ) (main (F := Ideal))) ⟨m, fun _ => 0, ρ⟩ (fun r => ∀ c : Dev nD,
      r.2.mem ((c.tc : Thread nD τ).loc main_v10) = mulf (addf (addf (addf (aU m c) (u1 m c)) (u2 m c)) (u3 m c)) (broadcastInDim S8192x32 ![] bcast_S_S8192x32 (constant (F := Ideal) S_ .f32 0x3E800000#32))
      ∧ r.2.mem ((c.tc : Thread nD τ).loc main_v12) = mulf (addf (addf (addf (aI m c) (i1 m c)) (i2 m c)) (i3 m c)) (broadcastInDim S16384x32 ![] bcast_S_S16384x32 (constant (F := Ideal) S_ .f32 0x3E800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v10 (by decide))).trans (W6_v10 m ρ c),
     (h c _ (mem_uc main_v12 (by decide))).trans (W6_v12 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)
end Asm

end Cert.KernelIdeal.Hand

end
-- ==== Proof.RefValue.lean ====
/-
  The reference's side. Its two matrix products are the round specification: the product of A with an item-side table
  is `propU`, and the product of the transposed A with a user-side table is `propI` (reading the transpose at (s, k)
  is reading A at (k, s)). Rewriting with these two facts turns the reference's result terms into the specification
  composed three times.
-/
import proofs.«178445_j35003983462547_1_alg».proof.Proof.Gen.ReferenceIdeal.Run
import proofs.«178445_j35003983462547_1_alg».proof.Proof.Gen.ReferenceIdeal.Read
import proofs.«178445_j35003983462547_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Spec

/-- A · I, as the host computes it, is the user-side specification. -/
theorem dotU_eq (A : FVec Ideal S8192x16384 .f32) (I : FVec Ideal S16384x32 .f32) :
    Host.dotGeneral (F := Ideal) dot_S8192x16384_S16384x32_S8192x32_1_0_0_1_n_n none A I = propU A I := by
  funext i
  refine (val_main_v0_apply I A i).trans ?_
  refine Finset.sum_congr rfl fun k _ => ?_
  rw [show lidx_main_v0 i k = ix2 (i 0) k from funext fun a => Fin.ext (by match a with | ⟨0, _⟩ => rfl | ⟨1, _⟩ => rfl),
    show ridx_main_v0 i k = ix2 k (i 1) from funext fun a => Fin.ext (by match a with | ⟨0, _⟩ => rfl | ⟨1, _⟩ => rfl)]
  rfl

/-- Aᵀ · U, as the host computes it (a transpose, then a product), is the item-side specification. -/
theorem dotI_eq (A : FVec Ideal S8192x16384 .f32) (U : FVec Ideal S8192x32 .f32) :
    Host.dotGeneral (F := Ideal) dot_S16384x8192_S8192x32_S16384x32_1_0_0_1_n_n none
      (transpose S16384x8192 [1, 0] A transposes_S8192x16384_S16384x8192_1_0) U = propI A U := by
  funext i
  refine (val_main_v2_apply U A i).trans ?_
  refine Finset.sum_congr rfl fun k _ => ?_
  rw [val_main_v1_apply,
    show idx_main_v1 (lidx_main_v2 i k) = ix2 k (i 0) from funext fun a => Fin.ext (by match a with | ⟨0, _⟩ => rfl | ⟨1, _⟩ => rfl),
    show ridx_main_v2 i k = ix2 k (i 1) from funext fun a => Fin.ext (by match a with | ⟨0, _⟩ => rfl | ⟨1, _⟩ => rfl)]
  rfl

end Cert.ReferenceIdeal.RefValue

end
-- ==== Proof.lean ====
/-
  The certificate: a three-round link propagation computed by a tiled kernel against the same propagation written
  with whole matrix products.
  With A the link matrix, one round sends a user-side table U and an item-side table I to A · I and Aᵀ · U; both
  programs run three rounds from the input tables, add the four layers' tables on each side and scale by a quarter.
  The kernel computes a round's two products tile by tile over an 8 × 8 grid, accumulating into two resident
  results: for a fixed band of rows the tiles' contributions are the consecutive blocks of the whole product's sum,
  so regrouping a finite sum — which needs only that addition of extended reals is commutative and associative — is
  all that separates the two programs; the narrowing of the operands before each tile product is the identity over
  the extended reals.
  The frames of the two kernel programs are the run of @main region by region (each grid point's body run on its
  staging buffers, the accumulators carried from point to point); the reference's frame is its run read back;
  nothing was rewritten by the idealization, so that conjunct holds trivially; and the two idealized programs end
  with equal results because each names the same composition of the round specification.
-/
import proofs.«178445_j35003983462547_1_alg».proof.Defs
import proofs.«178445_j35003983462547_1_alg».proof.Proof.Gen.Kernel
import proofs.«178445_j35003983462547_1_alg».proof.Proof.Gen.KernelIdeal
import proofs.«178445_j35003983462547_1_alg».proof.Proof.Gen.ReferenceIdeal
import proofs.«178445_j35003983462547_1_alg».proof.Proof.Gen.Pre_finite_inputs
import proofs.«178445_j35003983462547_1_alg».proof.Proof.Gen.ReferenceIdeal.Run
import proofs.«178445_j35003983462547_1_alg».proof.Proof.K.Run
import proofs.«178445_j35003983462547_1_alg».proof.Proof.KI.Final
import proofs.«178445_j35003983462547_1_alg».proof.Proof.RefValue
import Idealize.ShloMosaic.Adequacy
import Idealize.ShloMosaic.Init

noncomputable section

namespace Cert.Proof

open Idealize.ShloMosaic Idealize.SL.Sem

/-- The word-level kernel runs to the end and leaves its three arguments as it found them. -/
theorem frame_k : Cert.frame_Kernel := fun m ρ _ => Cert.Kernel.Hand.frame m ρ

/-- So does the idealized kernel. -/
theorem frame_ki : Cert.frame_KernelIdeal := fun m ρ _ =>
  (θ_run Cert.KernelIdeal.defs _ _).mono (fun _ h c => ⟨(h c).2.2.1, (h c).2.2.2.1, (h c).2.2.2.2⟩) (Cert.KernelIdeal.Hand.run_value m ρ)

/-- And the reference: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both idealized programs end holding, on each side, the sum of the input
    table and the three rounds' tables scaled by a quarter, every round's tables the round specification of the
    round before's: the reference's matrix products are that specification (`dotU_eq`, `dotI_eq`). -/
theorem algebraic : Cert.algebraic_KernelIdeal_ReferenceIdeal := by
  intro m ρ m' ρ' _ hagree
  refine ⟨_, _, Cert.KernelIdeal.Hand.run_value m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [(hagree c).1, (hagree c).2.1, (hagree c).2.2]
    simp only [Cert.ReferenceIdeal.RefValue.dotU_eq]
    repeat rw [Cert.ReferenceIdeal.RefValue.dotI_eq]
  · rw [(hagree c).1, (hagree c).2.1, (hagree c).2.2]
    simp only [Cert.ReferenceIdeal.RefValue.dotU_eq]
    repeat rw [Cert.ReferenceIdeal.RefValue.dotI_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
